-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S1024x1024 : Shape := ⟨2, ![1024, 1024]⟩
abbrev S1024 : Shape := ⟨1, ![1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4x8192x1024 .f32) (main_arg1 : FVec F S1024x1024 .f32) (main_arg2 : FVec F S1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S4x8192x1024 : Shape := ⟨3, ![4, 8192, 1024]⟩
abbrev S1024x1024 : Shape := ⟨2, ![1024, 1024]⟩
abbrev S1024 : Shape := ⟨1, ![1024]⟩
abbrev S32768x1024 : Shape := ⟨2, ![32768, 1024]⟩
abbrev S1x1024 : Shape := ⟨2, ![1, 1024]⟩
abbrev S2048x1024 : Shape := ⟨2, ![2048, 1024]⟩
abbrev S_ : Shape := ⟨0, ![]⟩
abbrev S1024x1 : Shape := ⟨2, ![1024, 1]⟩
abbrev S512x1024 : Shape := ⟨2, ![512, 1024]⟩
abbrev S512 : Shape := ⟨1, ![512]⟩
abbrev S512x1 : Shape := ⟨2, ![512, 1]⟩

abbrev nBuf : Space → Nat
  | .hbm => 48
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S1024x1024, .f32⟩
  | .hbm, ⟨2, _⟩ => ⟨S1024, .f32⟩
  | .hbm, ⟨3, _⟩ => ⟨S32768x1024, .f32⟩
  | .hbm, ⟨4, _⟩ => ⟨S1x1024, .f32⟩
  | .hbm, ⟨5, _⟩ => ⟨S1024, .f32⟩
  | .hbm, ⟨6, _⟩ => ⟨S1024x1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S_, .f32⟩
  | .hbm, ⟨15, _⟩ => ⟨S1024, .f32⟩
  | .hbm, ⟨16, _⟩ => ⟨S1024, .f32⟩
  | .hbm, ⟨17, _⟩ => ⟨S1x1024, .f32⟩
  | .hbm, ⟨18, _⟩ => ⟨S1x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1024x1, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S1024x1024, .f32⟩
  | .hbm, ⟨38, _⟩ => ⟨S1024x1024, .f32⟩
  | .hbm, ⟨39, _⟩ => ⟨S_, .f32⟩
  | .hbm, ⟨40, _⟩ => ⟨S1024x1024, .f32⟩
  | .hbm, ⟨41, _⟩ => ⟨S1024x1024, .f32⟩
  | .hbm, ⟨42, _⟩ => ⟨S1x1024, .f32⟩
  | .hbm, ⟨43, _⟩ => ⟨S1024x1024, .f32⟩
  | .hbm, ⟨44, _⟩ => ⟨S1024x1024, .bf16⟩
  | .hbm, ⟨45, _⟩ => ⟨S1x1024, .f32⟩
  | .hbm, ⟨46, _⟩ => ⟨S32768x1024, .f32⟩
  | .hbm, ⟨47, _⟩ => ⟨S4x8192x1024, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_cst_6 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg5_1 : Ref sig .tc := ⟨.vmem, 10, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem5_1 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_1 : BitVec 32 := 0#32
  let v7 : BitVec 1 := Scalar.cmpi .ne v6 c0_i32_1
  v7

def k0_cond2 (i : grid0.Coords) : BitVec 1 :=
  let arg0 : BitVec 32 := BitVec.ofNat 32 (i 0).val
  let c0_i32_2 : BitVec 32 := 0#32
  let v8 : BitVec 1 := Scalar.cmpi .ne arg0 c0_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S4x8192x1024_S32768x1024 : S4x8192x1024.ShapeCasts S32768x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  reduces_S2048x1024_S1024 : S2048x1024.Reduces [0] S1024
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1x1024_S1024 : S1x1024.ShapeCasts S1024
  reducesTo_S1024x1024_S1024_d0 : S1024x1024.ReducesTo [0] S1024
  h_S_ : 0 < S_.numel
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  reducesTo_S1024x1024_S1024_d1 : S1024x1024.ReducesTo [1] S1024
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  bcast_S_S1024x1024 : S_.BroadcastsInDim S1024x1024 (![] : Fin 0 → Fin S1024x1024.rank)
  transposes_S1024x1024_S1024x1024_1_0 : S1024x1024.Transposes [1, 0] S1024x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S32768x1024_S4x8192x1024 : S32768x1024.ShapeCasts S4x8192x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S32768x1024.size a
  hwx1_0 : ∀ i : grid1.Coords, EltTy.bits .f32 = 32 ∨ (Rect.block (s := S32768x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .bf16 = 32 ∨ (Rect.block (s := S1024x1024) S1024x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1024.size a ≤ S32768x1024.size a
  hwx1_5 : ∀ i : grid1.Coords, EltTy.bits .f32 = 32 ∨ (Rect.block (s := S32768x1024) S512x1024.size (cc1_transform_5 i) (hinb1_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) | ⟨_ + 2, h⟩ => absurd h (Nat.not_lt.2 (Nat.le_add_left _ _))

abbrev win1_0 : Pipeline.Window sig grid1 :=
  Pipeline.Window.ofSpec (Memref.whole main_v0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x8192x1024 : Shape := ⟨3, ![4, 8192, 1024]⟩
abbrev S1024x1024 : Shape := ⟨2, ![1024, 1024]⟩
abbrev S1024 : Shape := ⟨1, ![1024]⟩
abbrev S32768x1024 : Shape := ⟨2, ![32768, 1024]⟩
abbrev S_ : Shape := ⟨0, ![]⟩
abbrev S1x1024 : Shape := ⟨2, ![1, 1024]⟩
abbrev S32768 : Shape := ⟨1, ![32768]⟩
abbrev S32768x1 : Shape := ⟨2, ![32768, 1]⟩
abbrev S1024x1 : Shape := ⟨2, ![1024, 1]⟩

abbrev nBuf : Space → Nat
  | .hbm => 78
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024x1024, .f32⟩
  | .hbm, ⟨2, _⟩ => ⟨S1024, .f32⟩
  | .hbm, ⟨3, _⟩ => ⟨S32768x1024, .f32⟩
  | .hbm, ⟨4, _⟩ => ⟨S32768x1024, .f32⟩
  | .hbm, ⟨5, _⟩ => ⟨S_, .f32⟩
  | .hbm, ⟨6, _⟩ => ⟨S1024, .f32⟩
  | .hbm, ⟨7, _⟩ => ⟨S1024x1024, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S_, .f32⟩
  | .hbm, ⟨23, _⟩ => ⟨S32768, .f32⟩
  | .hbm, ⟨24, _⟩ => ⟨S_, .f32⟩
  | .hbm, ⟨25, _⟩ => ⟨S32768, .f32⟩
  | .hbm, ⟨26, _⟩ => ⟨S32768, .f32⟩
  | .hbm, ⟨27, _⟩ => ⟨S_, .f32⟩
  | .hbm, ⟨28, _⟩ => ⟨S32768, .f32⟩
  | .hbm, ⟨29, _⟩ => ⟨S32768, .f32⟩
  | .hbm, ⟨30, _⟩ => ⟨S32768x1, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S32768x1024, .f32⟩
  | .hbm, ⟨38, _⟩ => ⟨S32768x1024, .f32⟩
  | .hbm, ⟨39, _⟩ => ⟨S_, .f32⟩
  | .hbm, ⟨40, _⟩ => ⟨S32768x1024, .f32⟩
  | .hbm, ⟨41, _⟩ => ⟨S32768x1024, .f32⟩
  | .hbm, ⟨42, _⟩ => ⟨S1x1024, .f32⟩
  | .hbm, ⟨43, _⟩ => ⟨S1024x1024, .f32⟩
  | .hbm, ⟨44, _⟩ => ⟨S1024x1024, .f32⟩
  | .hbm, ⟨45, _⟩ => ⟨S1024x1024, .f32⟩
  | .hbm, ⟨46, _⟩ => ⟨S_, .f32⟩
  | .hbm, ⟨47, _⟩ => ⟨S1024, .f32⟩
  | .hbm, ⟨48, _⟩ => ⟨S_, .f32⟩
  | .hbm, ⟨49, _⟩ => ⟨S1024, .f32⟩
  | .hbm, ⟨50, _⟩ => ⟨S1024, .f32⟩
  | .hbm, ⟨51, _⟩ => ⟨S_, .f32⟩
  | .hbm, ⟨52, _⟩ => ⟨S1024, .f32⟩
  | .hbm, ⟨53, _⟩ => ⟨S1024, .f32⟩
  | .hbm, ⟨54, _⟩ => ⟨S1024x1, .f32⟩
  | .hbm, ⟨55, _⟩ => ⟨S1024x1024, .f32⟩
  | .hbm, ⟨56, _⟩ => ⟨S1024x1024, .f32⟩
  | .hbm, ⟨57, _⟩ => ⟨S1024x1024, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S1024x1024, .f32⟩
  | .hbm, ⟨62, _⟩ => ⟨S1024x1024, .f32⟩
  | .hbm, ⟨63, _⟩ => ⟨S_, .f32⟩
  | .hbm, ⟨64, _⟩ => ⟨S1024x1024, .f32⟩
  | .hbm, ⟨65, _⟩ => ⟨S1024x1024, .f32⟩
  | .hbm, ⟨66, _⟩ => ⟨S1024x1024, .f32⟩
  | .hbm, ⟨67, _⟩ => ⟨S32768x1024, .f32⟩
  | .hbm, ⟨68, _⟩ => ⟨S32768x1, .f32⟩
  | .hbm, ⟨69, _⟩ => ⟨S32768x1024, .f32⟩
  | .hbm, ⟨70, _⟩ => ⟨S32768x1024, .f32⟩
  | .hbm, ⟨71, _⟩ => ⟨S1x1024, .f32⟩
  | .hbm, ⟨72, _⟩ => ⟨S32768x1024, .f32⟩
  | .hbm, ⟨73, _⟩ => ⟨S32768x1024, .f32⟩
  | .hbm, ⟨74, _⟩ => ⟨S1x1024, .f32⟩
  | .hbm, ⟨75, _⟩ => ⟨S32768x1024, .f32⟩
  | .hbm, ⟨76, _⟩ => ⟨S32768x1024, .f32⟩
  | .hbm, ⟨77, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_cst_9 : Ref sig .tc := ⟨.hbm, 48, rfl⟩
abbrev main_v30 : Ref sig .tc := ⟨.hbm, 49, rfl⟩
abbrev main_v31 : Ref sig .tc := ⟨.hbm, 50, rfl⟩
abbrev main_cst_10 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_11 : Ref sig .tc := ⟨.hbm, 58, rfl⟩
abbrev main_cst_12 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩

abbrev nD : Nat := 1
abbrev τ : Topo := Topo.v7x

variable {F : FTy → Type} [FloatOps F]

class Facts₀ : Prop where
  shapeCasts_S4x8192x1024_S32768x1024 : S4x8192x1024.ShapeCasts S32768x1024
  reducesTo_S32768x1024_S1024_d0 : S32768x1024.ReducesTo [0] S1024
  h_S_ : 0 < S_.numel
  reducesTo_S1024x1024_S1024_d0 : S1024x1024.ReducesTo [0] S1024
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  reducesTo_S32768x1024_S32768_d1 : S32768x1024.ReducesTo [1] S32768
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x1024_0_1 : S32768x1.BroadcastsInDim S32768x1024 (![0, 1] : Fin 2 → Fin S32768x1024.rank)
  bcast_S_S32768x1024 : S_.BroadcastsInDim S32768x1024 (![] : Fin 0 → Fin S32768x1024.rank)
  bcast_S1x1024_S1024x1024_0_1 : S1x1024.BroadcastsInDim S1024x1024 (![0, 1] : Fin 2 → Fin S1024x1024.rank)
  reducesTo_S1024x1024_S1024_d1 : S1024x1024.ReducesTo [1] S1024
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  bcast_S_S1024x1024 : S_.BroadcastsInDim S1024x1024 (![] : Fin 0 → Fin S1024x1024.rank)
  transposes_S1024x1024_S1024x1024_1_0 : S1024x1024.Transposes [1, 0] S1024x1024
  shapeCasts_S32768x1024_S4x8192x1024 : S32768x1024.ShapeCasts S4x8192x1024
  dot_S32768x1024_S1024x1024_S32768x1024_1_0_0_1_n_n_wf : DotDims.WF S32768x1024 S1024x1024 S32768x1024 [1] [0] [0] [1] [] []

variable [Facts₀]

def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf

class Facts : Prop extends Facts₀ where

variable [Facts]
-- ==== Proof.K.ColMaxBody.lean ====
/-
  Region 0 (the column-maximum pass) at any float instance: what its output block holds after each grid point,
  the proof data of its pipeline, and the body's obligation.

  The pass walks the 32768 x 1024 activation in 16 tiles of 2048 rows. Its one output block (1 x 1024) stays in
  its staging buffer for the whole walk and is written back once, after the last tile. At tile 0 the body stores
  the tile's column maxima of |x|; at every later tile it loads what the block holds and stores the elementwise
  maximum of that and the tile's column maxima. So after tile n the block holds the column maxima of |x| over
  tiles 0..n: a recursion over the tile number (`runningMax`).
-/
import proofs.«110519_j61314953118436_1_alg».proof.Proof.Gen.Kernel.Launch
import proofs.«110519_j61314953118436_1_alg».proof.Proof.Gen.Kernel.Skeleton
import proofs.«110519_j61314953118436_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole input tile and the whole output block, as the rectangles the body loads and stores through. -/
abbrev rTile : Rect S2048x1024 := Rect.unit (s := S2048x1024) ![0, 0] S2048x1024.size inb_S2048x1024_S2048x1024_0_0
abbrev rCols : Rect S1x1024 := Rect.unit (s := S1x1024) ![0, 0] S1x1024.size inb_S1x1024_S1x1024_0_0

/-- What the first tile leaves in the output block: the tile's column maxima of |x|. -/
def colmaxFirst (x0 : Vec F S2048x1024 .f32) : Vec F S1x1024 .f32 :=
  View.canon [⟨rCols, k0_pay1 (View.ld x0 rTile)⟩]

/-- What a later tile leaves there: the maxima so far joined with this tile's. -/
def colmaxNext (x0 : Vec F S2048x1024 .f32) (prev : Vec F S1x1024 .f32) : Vec F S1x1024 .f32 :=
  View.canon [⟨rCols, k0_pay2 (View.ld x0 rTile) (View.ld prev rCols)⟩]

/-- The zero offsets of a rank-2 block, as the constant function. -/
private theorem hz2 : (![0, 0] : Fin 2 → Nat) = fun _ => 0 := funext fun a => by fin_cases a <;> rfl

/-- One whole-block store over the whole block reads back as its payload. -/
theorem colmaxFirst_eq (x0 : Vec F S2048x1024 .f32) : colmaxFirst x0 = k0_pay1 x0 := by
  unfold colmaxFirst
  rw [View.canon_unit_zero (S := S1x1024) hz2, View.ld_unit_zero (S := S2048x1024) hz2]

theorem colmaxNext_eq (x0 : Vec F S2048x1024 .f32) (prev : Vec F S1x1024 .f32) : colmaxNext x0 prev = k0_pay2 x0 prev := by
  unfold colmaxNext
  rw [View.canon_unit_zero (S := S1x1024) hz2, View.ld_unit_zero (S := S2048x1024) hz2, View.ld_unit_zero (S := S1x1024) hz2]

/-- The output block after tile `n`: the column maxima of |x| over tiles 0..n. -/
def runningMax (c : Dev nD) : (n : ℕ) → n < cfg0.N → Vec F S1x1024 .f32
  | 0, hn => colmaxFirst (iblk0 V c 0 ⟨0, hn⟩)
  | n + 1, hn => colmaxNext (iblk0 V c 0 ⟨n + 1, hn⟩) (runningMax c n (Nat.lt_of_succ_lt hn))

theorem runningMax_zero (c : Dev nD) (hn : 0 < cfg0.N) : runningMax V c 0 hn = colmaxFirst (iblk0 V c 0 ⟨0, hn⟩) := rfl
theorem runningMax_succ (c : Dev nD) (n : ℕ) (hn : n + 1 < cfg0.N) :
    runningMax V c (n + 1) hn = colmaxNext (iblk0 V c 0 ⟨n + 1, hn⟩) (runningMax V c n (Nat.lt_of_succ_lt hn)) := rfl

/-- The proof data of pipeline 0 on core `c`: the arrays as the region finds them; after the body at tile `t` the
    input's buffer at its tile and the output's at the running maxima; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => runningMax V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = runningMax V c t.val t.isLt := by dsimp only [dat0]

/-! ## Which tiles take which branch, and where the output block rests -/

/-- The first conditional holds at tile 0 only, the second at every later tile — decided over the grid. -/
theorem hcond1 : ∀ t : Fin cfg0.N, k0_cond1 (grid0.coords t) = 1#1 ↔ t.val = 0 :=
  (by decide +kernel : ∀ t : Fin grid0.N, k0_cond1 (grid0.coords t) = 1#1 ↔ t.val = 0)
theorem hcond2 : ∀ t : Fin cfg0.N, k0_cond2 (grid0.coords t) = 1#1 ↔ t.val ≠ 0 :=
  (by decide +kernel : ∀ t : Fin grid0.N, k0_cond2 (grid0.coords t) = 1#1 ↔ t.val ≠ 0)

/-- So the output block is stored at every tile: no tile leaves it idle. -/
theorem idle0_1 : ∀ t : Fin cfg0.N, cfg0.idle (1 : Fin 2) (cfg0.grid.coords t) = false :=
  (by decide +kernel : ∀ t : Fin grid0.N, idle0 1 (grid0.coords t) = false)
theorem live0_1 : ∀ i : grid0.Coords, cfg0.idle (1 : Fin 2) i = false :=
  (by decide +kernel : ∀ i : grid0.Coords, idle0 1 i = false)

/-- Input window 0's staging buffer holds its tile at every point, for any proof data whose array is the
    region's and whose body leaves the tile in place. -/
private theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- One store over the whole block covers it. -/
private theorem coverCols (p0 : Vec F S1x1024 .f32) (y : S1x1024.Idx) :
    ∃ pc ∈ ([⟨rCols, p0⟩] : List (View.Piece (Elt F) S1x1024 .f32)), y ∈ pc.1.set :=
  ⟨_, List.mem_singleton_self _, View.mem_set_unit_zero hz2 inb_S1x1024_S1x1024_0_0 y⟩

/-! ## The body's triple, branch by branch -/

set_option maxHeartbeats 1000000 in
/-- At the first tile (the first conditional taken, the second not) the body, on whole staging memrefs — the input's
    at its tile, the output's at anything — leaves the input's as it was and the output's at the tile's column maxima. -/
private theorem sound_kernel0_A (c : Dev nD) (E : Set ℕ) (i : grid0.Coords) (arg1 : Memref sig .tc .vmem S2048x1024 .f32) (harg1 : arg1.IsWhole)
    (arg2 : Memref sig .tc .vmem S1x1024 .f32) (harg2 : arg2.IsWhole) (hc1 : k0_cond1 i = 1#1) (hc2 : ¬ k0_cond2 i = 1#1)
    (x0 : Vec F S2048x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (colmaxFirst x0)) -∗ K ⟨⟩))
      ⊢ wp frame (wpE (defs₀ (F := F)) Variants.none c none) E (cc0__colmax_kernel i arg1 harg1 arg2 harg2) K := by
  simp only [cc0__colmax_kernel_eq_skeleton]; unfold cc0__colmax_kernel_skel
  unfold owns
  iintro ⟨⟨%f0, %hf0, H0⟩, ⟨%d1, %f1, -, H1⟩, Hk⟩
  subst hf0
  sl_exec (disch := first | exact hc1 | exact hc2)
  sl_step
  iapply Hk
  isplitl [H0]
  · iexists f0; isplitr; · ipureintro; rfl
    iexact H0
  iexists _; isplitr
  swap; · iexact H1
  ipureintro
  exact View.read_writes_eq_canon _ _ _ (coverCols _)

set_option maxHeartbeats 1000000 in
/-- At a later tile (the first conditional not taken, the second taken) the body, the output's buffer at `prev`,
    leaves the output's at the elementwise maximum of `prev` and the tile's column maxima. -/
private theorem sound_kernel0_B (c : Dev nD) (E : Set ℕ) (i : grid0.Coords) (arg1 : Memref sig .tc .vmem S2048x1024 .f32) (harg1 : arg1.IsWhole)
    (arg2 : Memref sig .tc .vmem S1x1024 .f32) (harg2 : arg2.IsWhole) (hc1 : ¬ k0_cond1 i = 1#1) (hc2 : k0_cond2 i = 1#1)
    (x0 : Vec F S2048x1024 .f32) (prev : Vec F S1x1024 .f32) (K : PUnit → sProp 𝕄) :
    iprop(owns (c : Thread nD τ) arg1 fullShare x0 ∗ owns (c : Thread nD τ) arg2 fullShare prev
        ∗ (iprop(owns (c : Thread nD τ) arg1 fullShare x0 ∗ owns (c : Thread nD τ) arg2 fullShare (colmaxNext x0 prev)) -∗ K ⟨⟩))
      ⊢ wp frame (wpE (defs₀ (F := F)) Variants.none c none) E (cc0__colmax_kernel i arg1 harg1 arg2 harg2) K := by
  simp only [cc0__colmax_kernel_eq_skeleton]; unfold cc0__colmax_kernel_skel
  unfold owns
  iintro ⟨⟨%f0, %hf0, H0⟩, ⟨%f1, %hf1, H1⟩, Hk⟩
  subst hf0; subst hf1
  sl_exec (disch := first | exact hc1 | exact hc2)
  sl_step
  iapply Hk
  isplitl [H0]
  · iexists f0; isplitr; · ipureintro; rfl
    iexact H0
  iexists _; isplitr
  swap; · iexact H1
  ipureintro
  exact View.read_writes_eq_canon _ _ _ (coverCols _)

/-! ## What the staging buffers hold when the body runs -/

/-- The running maxima at tile 0, and at a later tile from the tile before. -/
private theorem runningMax_first (c : Dev nD) (t : Fin cfg0.N) (h0 : t.val = 0) :
    runningMax V c t.val t.isLt = colmaxFirst (iblk0 V c 0 t) := by
  obtain ⟨n, hn⟩ := t
  dsimp only at h0
  subst h0
  rfl

private theorem runningMax_next (c : Dev nD) (t : Fin cfg0.N) (h0 : t.val ≠ 0) :
    runningMax V c t.val t.isLt
      = colmaxNext (iblk0 V c 0 t) (runningMax V c (t.val - 1) (Nat.lt_of_le_of_lt (Nat.sub_le _ _) t.isLt)) := by
  obtain ⟨n, hn⟩ := t
  cases n with
  | zero => exact absurd rfl h0
  | succ n => rfl

/-- The input's staging buffer holds its tile at every point. -/
private theorem before0_0 (c : Dev nD) (t : Fin cfg0.N) (d) : (dat0 V c).before 0 t d = iblk0 V c 0 t :=
  before0_0_of V (dat0 V c) (A_eq0 V c 0) (after0_0 V c) t d

/-- At a later tile the output's staging buffer holds what the tile before left: the tile is not the first, the
    buffer is written back only after the last tile, no tile leaves it idle and the window is uncut. -/
private theorem before0_1_next (c : Dev nD) (t : Fin cfg0.N) (h0 : t.val ≠ 0) (d) :
    (dat0 V c).before 1 t d = runningMax V c (t.val - 1) (Nat.lt_of_le_of_lt (Nat.sub_le _ _) t.isLt) := by
  have hN : t.val < 16 := lt_of_lt_of_eq t.isLt (show cfg0.N = 16 from N_0)
  rw [Dat.before_out_kept _ 1 rfl t h0 (Bool.eq_false_iff.mpr fun h => by have := (flush0_1 _).mp h; dsimp only at this; omega)
    live0_1 (fun _ _ => rfl)]
  dsimp only [dat0]

/-! ## The body obligation, at a generic tile -/

/-- What the body is called with at tile `t`, the windows one by one, -/
private def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
private def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

set_option maxHeartbeats 800000 in
/-- The body at any tile: the input's memref holds its tile; the closed forms of the conditions say which branch the
    tile takes; at a later tile the output's memref holds the maxima so far; so the branch's triple applies; the
    invariant and what the core owes pass through unread. -/
private theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  by_cases h0 : t.val = 0
  · rw [runningMax_first V c t h0]
    iintro ⟨HΦ, Ho, ⟨%d0, H0⟩, ⟨%d1, H1⟩⟩
    iapply (sound_kernel0_A c Set.univ (grid0.coords t) _ _ _ _ ((hcond1 t).mpr h0) (fun h => (hcond2 t).mp h h0) (iblk0 V c 0 t) _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · rw [runningMax_next V c t h0]
    simp only [before0_1_next V c t h0]
    iintro ⟨HΦ, Ho, ⟨%d0, H0⟩, ⟨%d1, H1⟩⟩
    iapply (sound_kernel0_B c Set.univ (grid0.coords t) _ _ _ _ (fun h => h0 ((hcond1 t).mp h)) ((hcond2 t).mpr h0) (iblk0 V c 0 t) _ _)
    isplitl [H0]; · iexact H0
    isplitl [H1]; · iexact H1
    iintro ⟨H0, H1⟩
    isplitl [HΦ]; · iexact HΦ
    isplitl [Ho]; · iexact Ho
    isplitl [H0]; · iexact H0
    iexact H1

/-- The library's body obligation for region 0, at every tile. -/
theorem body_obligation0 (c : Dev nD) : BodyObligation (dat0 (F := F) V c) (defs₀ (F := F)) Variants.none () Set.univ := fun t => by
  rw [bigSep_W0, bigSep_W0, idle0_1 t]
  exact sound_body0 V c t

end Cert.Kernel.Frame

end
-- ==== Proof.K.QuantBody.lean ====
/-
  Region 1 (quantize, multiply, dequantize) at any float instance: what its output block holds after each grid
  point, the proof data of its pipeline, and the body's obligation.

  The pass walks the 32768 x 1024 activation in 64 tiles of 512 rows. At each tile the body loads the tile and the
  four resident operands (the inverse smoothing scale, the quantized transposed weight, the weight's row scales,
  the bias), computes the tile's output rows as one pure function of those five blocks and stores it over the
  whole output block, which is written back at every tile. No tile depends on another.
-/
import proofs.«110519_j61314953118436_1_alg».proof.Proof.Gen.Kernel.Launch
import proofs.«110519_j61314953118436_1_alg».proof.Proof.Gen.Kernel.Skeleton
import proofs.«110519_j61314953118436_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every tile, fetched there or not. -/
private theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every tile, fetched there or not. -/
private theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every tile, fetched there or not. -/
private theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every tile, fetched there or not. -/
private theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every tile, fetched there or not. -/
private theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole blocks, as the rectangles the body loads and stores through. -/
abbrev rRows : Rect S512x1024 := Rect.unit (s := S512x1024) ![0, 0] S512x1024.size inb_S512x1024_S512x1024_0_0
abbrev rVec : Rect S1x1024 := Rect.unit (s := S1x1024) ![0, 0] S1x1024.size inb_S1x1024_S1x1024_0_0
abbrev rMat : Rect S1024x1024 := Rect.unit (s := S1024x1024) ![0, 0] S1024x1024.size inb_S1024x1024_S1024x1024_0_0

/-- What the body leaves in the output block, from the five input blocks: one store over the whole block. -/
def outBlock (x0 : Vec F S512x1024 .f32) (x1 : Vec F S1x1024 .f32) (x2 : Vec F S1024x1024 .bf16) (x3 : Vec F S1x1024 .f32) (x4 : Vec F S1x1024 .f32) :
    Vec F S512x1024 .f32 :=
  View.canon [⟨rRows, k1_pay1 (View.ld x0 rRows) (View.ld x1 rVec) (View.ld x2 rMat) (View.ld x3 rVec) (View.ld x4 rVec)⟩]

/-- The rank-2 zero offset, however it is spelt. -/
private theorem hz2 : (![0, 0] : Fin 2 → Nat) = fun _ => 0 := funext fun a => by fin_cases a <;> rfl

/-- One whole-block store over the whole block reads back as its payload. -/
theorem outBlock_eq (x0 : Vec F S512x1024 .f32) (x1 : Vec F S1x1024 .f32) (x2 : Vec F S1024x1024 .bf16) (x3 : Vec F S1x1024 .f32) (x4 : Vec F S1x1024 .f32) :
    outBlock x0 x1 x2 x3 x4 = k1_pay1 x0 x1 x2 x3 x4 := by
  unfold outBlock
  rw [View.canon_unit_zero (S := S512x1024) hz2 inb_S512x1024_S512x1024_0_0,
    View.ld_unit_zero (S := S512x1024) hz2 inb_S512x1024_S512x1024_0_0,
    View.ld_unit_zero (S := S1024x1024) hz2 inb_S1024x1024_S1024x1024_0_0]
  simp only [View.ld_unit_zero (S := S1x1024) hz2 inb_S1x1024_S1x1024_0_0]

/-! ## The body's triple -/

/-- The one store covers the whole output block. -/
private theorem cover1_5 (p0 : Vec F S512x1024 .f32) (y : S512x1024.Idx) :
    ∃ pc ∈ ([⟨rRows, p0⟩] : List (View.Piece (Elt F) S512x1024 .f32)), y ∈ pc.1.set :=
  ⟨_, List.mem_singleton_self _, View.mem_set_unit_zero (S := S512x1024) hz2 inb_S512x1024_S512x1024_0_0 y⟩

set_option maxHeartbeats 1000000 in
/-- The body on whole staging memrefs, the five inputs' at read contents and the output's at anything, runs to the
    continuation holding the inputs' as they were and the output's at `outBlock` of the inputs'. -/
private theorem sound_kernel1 (c : Dev nD) (E : Set ℕ) (i : grid1.Coords)
    (arg1 : Memref sig .tc .vmem S512x1024 .f32) (harg1 : arg1.IsWhole) (arg2 : Memref sig .tc .vmem S1x1024 .f32) (harg2 : arg2.IsWhole)
    (arg3 : Memref sig .tc .vmem S1024x1024 .bf16) (harg3 : arg3.IsWhole) (arg4 : Memref sig .tc .vmem S1x1024 .f32) (harg4 : arg4.IsWhole)
    (arg5 : Memref sig .tc .vmem S1x1024 .f32) (harg5 : arg5.IsWhole) (arg6 : Memref sig .tc .vmem S512x1024 .f32) (harg6 : arg6.IsWhole)
    (x0 : Vec F S512x1024 .f32) (x1 : Vec F S1x1024 .f32) (x2 : Vec F S1024x1024 .bf16) (x3 : Vec F S1x1024 .f32) (x4 : Vec F S1x1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E (cc1__qmm_kernel i arg1 harg1 arg2 harg2 arg3 harg3 arg4 harg4 arg5 harg5 arg6 harg6) K := by
  simp only [cc1__qmm_kernel_eq_skeleton]; unfold cc1__qmm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of pipeline 1 on core `c`: the arrays as the region finds them; after the body at tile `t` each
    input's buffer at its block and the output's at `outBlock` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outBlock (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = outBlock (iblk1 V c 0 t) (iblk1 V c 1 t) (iblk1 V c 2 t) (iblk1 V c 3 t) (iblk1 V c 4 t) := by dsimp only [dat1]

/-- Each input's current staging buffer holds its block at every tile. -/
private theorem before1_0 (c : Dev nD) (t : Fin cfg1.N) (d) : (dat1 V c).before 0 t d = iblk1 V c 0 t :=
  before1_0_of V (dat1 V c) (A_eq1 V c 0) (after1_0 V c) t d
private theorem before1_1 (c : Dev nD) (t : Fin cfg1.N) (d) : (dat1 V c).before 1 t d = iblk1 V c 1 t :=
  before1_1_of V (dat1 V c) (A_eq1 V c 1) (after1_1 V c) t d
private theorem before1_2 (c : Dev nD) (t : Fin cfg1.N) (d) : (dat1 V c).before 2 t d = iblk1 V c 2 t :=
  before1_2_of V (dat1 V c) (A_eq1 V c 2) (after1_2 V c) t d
private theorem before1_3 (c : Dev nD) (t : Fin cfg1.N) (d) : (dat1 V c).before 3 t d = iblk1 V c 3 t :=
  before1_3_of V (dat1 V c) (A_eq1 V c 3) (after1_3 V c) t d
private theorem before1_4 (c : Dev nD) (t : Fin cfg1.N) (d) : (dat1 V c).before 4 t d = iblk1 V c 4 t :=
  before1_4_of V (dat1 V c) (A_eq1 V c 4) (after1_4 V c) t d

/-! ## The body obligation, at a generic tile -/

/-- What the body is called with at tile `t`, the windows one by one, -/
private def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
private def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any tile: the inputs' memrefs hold their blocks, so the body's triple applies; the invariant and
    the core's debts pass through unread. -/
private theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for region 1, at every tile. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.K.TwoRegionRun.lean ====
/-
  The whole program at any float instance: @main as nine items in order (a host reshape, the column-maximum
  pass, five stretches of host arithmetic, the quantize-and-multiply pass, a host reshape), the contents of every
  buffer between two items as a fold from the launch memory, and the run: every weakly fair execution ends, faults
  nowhere, and leaves every buffer that outlives a pass at the last stage of that fold.

  The fold: a host stretch applies its operations to what it finds; a pass leaves each of its arrays at what its
  write-backs add up to (an input array as it was) and touches nothing else. No item writes an argument array, so
  each argument ends as launched: the frame.
-/
import proofs.«110519_j61314953118436_1_alg».proof.Proof.K.ColMaxBody
import proofs.«110519_j61314953118436_1_alg».proof.Proof.K.QuantBody
import proofs.«110519_j61314953118436_1_alg».proof.Proof.Gen.Kernel.Regions

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Cert.Kernel.Facts₀ Cert.Kernel.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch. -/
abbrev W0 (c : Dev nD) : Valuation τ sig (Elt F) := fun b => m (c, b)
/-- After the first reshape (the column-maximum pass's entry). -/
abbrev W1 (c : Dev nD) : Valuation τ sig (Elt F) := StableHlo.after hostOps0 (W0 m c)
/-- The same read at the TensorCore's references. -/
abbrev V1 : (c : Dev nD) → (b : Ref sig .tc) → Buf (Elt F) ((c : Thread nD τ).loc b) := fun c b => W1 m c b
/-- After the column-maximum pass: its arrays at what its write-backs leave, every other buffer as entered. -/
def W2 (c : Dev nD) : Valuation τ sig (Elt F) :=
  Pipeline.withArrays spec0 c (W1 m c) fun w => (dat0 (V1 m) c).arrAt w cfg0.N
/-- After each of the five host stretches between the passes. -/
abbrev W3 (c : Dev nD) : Valuation τ sig (Elt F) := StableHlo.after hostOps1 (W2 m c)
abbrev W4 (c : Dev nD) : Valuation τ sig (Elt F) := StableHlo.after hostOps1_1 (W3 m c)
abbrev W5 (c : Dev nD) : Valuation τ sig (Elt F) := StableHlo.after hostOps1_2 (W4 m c)
abbrev W6 (c : Dev nD) : Valuation τ sig (Elt F) := StableHlo.after hostOps1_3 (W5 m c)
abbrev W7 (c : Dev nD) : Valuation τ sig (Elt F) := StableHlo.after hostOps1_4 (W6 m c)
/-- The same read at the TensorCore's references (the quantize-and-multiply pass's entry). -/
abbrev V7 : (c : Dev nD) → (b : Ref sig .tc) → Buf (Elt F) ((c : Thread nD τ).loc b) := fun c b => W7 m c b
/-- After the quantize-and-multiply pass. -/
def W8 (c : Dev nD) : Valuation τ sig (Elt F) :=
  Pipeline.withArrays spec1 c (W7 m c) fun w => (dat1 (V7 m) c).arrAt w cfg1.N
/-- After the last reshape: what @main returns from. -/
abbrev W9 (c : Dev nD) : Valuation τ sig (Elt F) := StableHlo.after hostOps2 (W8 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W8_arr (c : Dev nD) (w : Fin cfg1.W) :
    W8 m c (Proc.devRef .tc (Pipeline.arrRef spec1 w)) = (dat1 (V7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb

/-- An unscoped TensorCore reference is among those the run accounts for. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## No item writes an argument -/

theorem W9_main_arg0 (c : Dev nD) : W9 m c (Proc.devRef .tc main_arg0) = m ((c : Thread nD τ).loc main_arg0) :=
  calc W9 m c (Proc.devRef .tc main_arg0)
    _ = W8 m c (Proc.devRef .tc main_arg0) := StableHlo.after_of_writes_sub hostOps2 _ hostOps2_writes (by decide)
    _ = W7 m c (Proc.devRef .tc main_arg0) := W8_of_ne m c main_arg0 (by decide)
    _ = W6 m c (Proc.devRef .tc main_arg0) := StableHlo.after_of_writes_sub hostOps1_4 _ hostOps1_4_writes (by decide)
    _ = W5 m c (Proc.devRef .tc main_arg0) := StableHlo.after_of_writes_sub hostOps1_3 _ hostOps1_3_writes (by decide)
    _ = W4 m c (Proc.devRef .tc main_arg0) := StableHlo.after_of_writes_sub hostOps1_2 _ hostOps1_2_writes (by decide)
    _ = W3 m c (Proc.devRef .tc main_arg0) := StableHlo.after_of_writes_sub hostOps1_1 _ hostOps1_1_writes (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W9_main_arg1 (c : Dev nD) : W9 m c (Proc.devRef .tc main_arg1) = m ((c : Thread nD τ).loc main_arg1) :=
  calc W9 m c (Proc.devRef .tc main_arg1)
    _ = W8 m c (Proc.devRef .tc main_arg1) := StableHlo.after_of_writes_sub hostOps2 _ hostOps2_writes (by decide)
    _ = W7 m c (Proc.devRef .tc main_arg1) := W8_of_ne m c main_arg1 (by decide)
    _ = W6 m c (Proc.devRef .tc main_arg1) := StableHlo.after_of_writes_sub hostOps1_4 _ hostOps1_4_writes (by decide)
    _ = W5 m c (Proc.devRef .tc main_arg1) := StableHlo.after_of_writes_sub hostOps1_3 _ hostOps1_3_writes (by decide)
    _ = W4 m c (Proc.devRef .tc main_arg1) := StableHlo.after_of_writes_sub hostOps1_2 _ hostOps1_2_writes (by decide)
    _ = W3 m c (Proc.devRef .tc main_arg1) := StableHlo.after_of_writes_sub hostOps1_1 _ hostOps1_1_writes (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W9_main_arg2 (c : Dev nD) : W9 m c (Proc.devRef .tc main_arg2) = m ((c : Thread nD τ).loc main_arg2) :=
  calc W9 m c (Proc.devRef .tc main_arg2)
    _ = W8 m c (Proc.devRef .tc main_arg2) := StableHlo.after_of_writes_sub hostOps2 _ hostOps2_writes (by decide)
    _ = W7 m c (Proc.devRef .tc main_arg2) := W8_of_ne m c main_arg2 (by decide)
    _ = W6 m c (Proc.devRef .tc main_arg2) := StableHlo.after_of_writes_sub hostOps1_4 _ hostOps1_4_writes (by decide)
    _ = W5 m c (Proc.devRef .tc main_arg2) := StableHlo.after_of_writes_sub hostOps1_3 _ hostOps1_3_writes (by decide)
    _ = W4 m c (Proc.devRef .tc main_arg2) := StableHlo.after_of_writes_sub hostOps1_2 _ hostOps1_2_writes (by decide)
    _ = W3 m c (Proc.devRef .tc main_arg2) := StableHlo.after_of_writes_sub hostOps1_1 _ hostOps1_1_writes (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-! ## The run -/

/-- Every pass's proof data, each at the contents its pass is entered with. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and the core
    owing nothing. -/
abbrev R (c : Dev nD) : sProp 𝕄 := iprop((∃ r, prngReg c r) ∗ ∃ W, owes (c : Thread nD τ) (0 : CellTallies nD τ sig Unit) W)
/-- A host stretch as a segment: from every unscoped buffer at `W` to them at the stretch applied to `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without what is owed: every unscoped buffer at `W9`, the generator register at some state. -/
abbrev Tₙ (c : Dev nD) : sProp 𝕄 := iprop(StableHlo.held (c : Thread nD τ) (Pipeline.ucRefs τ sig) (W9 m c) ∗ ∃ r, prngReg c r)

set_option backward.isDefEq.respectTransparency.types false in
/-- Pass 0 as a segment: entered with every unscoped buffer at `W1`, left with them at `W2`. At entry its
    arrays are split off the unscoped buffers and the generator register goes into the pass's invariant; at exit the
    arrays, now at what the write-backs leave, are put back beside the untouched rest. Nothing is owed and the pass
    has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (fun b => W2 m c b) ((pdats m 0 c).arrAt · cfg0.N) (fun w => (W2_arr m c w).symm)
      (fun b hb => W2_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 1 as a segment: entered with every unscoped buffer at `W7`, left with them at `W8`. At entry its
    arrays are split off the unscoped buffers and the generator register goes into the pass's invariant; at exit the
    arrays, now at what the write-backs leave, are put back beside the untouched rest. Nothing is owed and the pass
    has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (V7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V7 m c) (fun b => W8 m c b) ((pdats m 1 c).arrAt · cfg1.N) (fun w => (W8_arr m c w).symm)
      (fun b hb => W8_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's nine items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .host (hseg hostOps1_4 hostOps1_4_sub hostOps1_4_fresh (W6 m)),
    .region (reg1 m),
    .host (hseg hostOps2 hostOps2_sub hostOps2_fresh (W8 m)) ]
/-- @main is the run of those items: it is the chain of their fragments, and so is the segments' run. -/
theorem main_run (c : Dev nD) : main (F := F) c = Pipeline.Seg.run (segs m) := by
  rw [main_chain c, Pipeline.Seg.run_eq_chain]; rfl

set_option backward.isDefEq.respectTransparency.types false in
/-- Every weakly fair execution of @main from memory `m` with zero counters terminates, nothing faulting, and every
    final state holds every unscoped buffer at the last stage of the fold. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W9_main_arg0 m c),
     (h c _ (mem_uc main_arg1 (by decide))).trans (W9_main_arg1 m c),
     (h c _ (mem_uc main_arg2 (by decide))).trans (W9_main_arg2 m c)⟩) (run_all m ρ)

end Cert.Kernel.Frame

end
-- ==== Proof.KI.ColMaxBody.lean ====
/-
  Region 0 (the column-maximum pass) at any float instance: what its output block holds after each grid point,
  the proof data of its pipeline, and the body's obligation.

  The pass walks the 32768 x 1024 activation in 16 tiles of 2048 rows. Its one output block (1 x 1024) stays in
  its staging buffer for the whole walk and is written back once, after the last tile. At tile 0 the body stores
  the tile's column maxima of |x|; at every later tile it loads what the block holds and stores the elementwise
  maximum of that and the tile's column maxima. So after tile n the block holds the column maxima of |x| over
  tiles 0..n: a recursion over the tile number (`runningMax`).
-/
import proofs.«110519_j61314953118436_1_alg».proof.Proof.Gen.KernelIdeal.Launch
import proofs.«110519_j61314953118436_1_alg».proof.Proof.Gen.KernelIdeal.Skeleton
import proofs.«110519_j61314953118436_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole input tile and the whole output block, as the rectangles the body loads and stores through. -/
abbrev rTile : Rect S2048x1024 := Rect.unit (s := S2048x1024) ![0, 0] S2048x1024.size inb_S2048x1024_S2048x1024_0_0
abbrev rCols : Rect S1x1024 := Rect.unit (s := S1x1024) ![0, 0] S1x1024.size inb_S1x1024_S1x1024_0_0

/-- What the first tile leaves in the output block: the tile's column maxima of |x|. -/
def colmaxFirst (x0 : Vec F S2048x1024 .f32) : Vec F S1x1024 .f32 :=
  View.canon [⟨rCols, k0_pay1 (View.ld x0 rTile)⟩]

/-- What a later tile leaves there: the maxima so far joined with this tile's. -/
def colmaxNext (x0 : Vec F S2048x1024 .f32) (prev : Vec F S1x1024 .f32) : Vec F S1x1024 .f32 :=
  View.canon [⟨rCols, k0_pay2 (View.ld x0 rTile) (View.ld prev rCols)⟩]

/-- The zero offsets of a rank-2 block, as the constant function. -/
private theorem hz2 : (![0, 0] : Fin 2 → Nat) = fun _ => 0 := funext fun a => by fin_cases a <;> rfl

/-- One whole-block store over the whole block reads back as its payload. -/
theorem colmaxFirst_eq (x0 : Vec F S2048x1024 .f32) : colmaxFirst x0 = k0_pay1 x0 := by
  unfold colmaxFirst
  rw [View.canon_unit_zero (S := S1x1024) hz2, View.ld_unit_zero (S := S2048x1024) hz2]

theorem colmaxNext_eq (x0 : Vec F S2048x1024 .f32) (prev : Vec F S1x1024 .f32) : colmaxNext x0 prev = k0_pay2 x0 prev := by
  unfold colmaxNext
  rw [View.canon_unit_zero (S := S1x1024) hz2, View.ld_unit_zero (S := S2048x1024) hz2, View.ld_unit_zero (S := S1x1024) hz2]

/-- The output block after tile `n`: the column maxima of |x| over tiles 0..n. -/
def runningMax (c : Dev nD) : (n : ℕ) → n < cfg0.N → Vec F S1x1024 .f32
  | 0, hn => colmaxFirst (iblk0 V c 0 ⟨0, hn⟩)
  | n + 1, hn => colmaxNext (iblk0 V c 0 ⟨n + 1, hn⟩) (runningMax c n (Nat.lt_of_succ_lt hn))

theorem runningMax_zero (c : Dev nD) (hn : 0 < cfg0.N) : runningMax V c 0 hn = colmaxFirst (iblk0 V c 0 ⟨0, hn⟩) := rfl
theorem runningMax_succ (c : Dev nD) (n : ℕ) (hn : n + 1 < cfg0.N) :
    runningMax V c (n + 1) hn = colmaxNext (iblk0 V c 0 ⟨n + 1, hn⟩) (runningMax V c n (Nat.lt_of_succ_lt hn)) := rfl

/-- The proof data of pipeline 0 on core `c`: the arrays as the region finds them; after the body at tile `t` the
    input's buffer at its tile and the output's at the running maxima; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => runningMax V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = runningMax V c t.val t.isLt := by dsimp only [dat0]

/-! ## Which tiles take which branch, and where the output block rests -/

/-- The first conditional holds at tile 0 only, the second at every later tile — decided over the grid. -/
theorem hcond1 : ∀ t : Fin cfg0.N, k0_cond1 (grid0.coords t) = 1#1 ↔ t.val = 0 :=
  (by decide +kernel : ∀ t : Fin grid0.N, k0_cond1 (grid0.coords t) = 1#1 ↔ t.val = 0)
theorem hcond2 : ∀ t : Fin cfg0.N, k0_cond2 (grid0.coords t) = 1#1 ↔ t.val ≠ 0 :=
  (by decide +kernel : ∀ t : Fin grid0.N, k0_cond2 (grid0.coords t) = 1#1 ↔ t.val ≠ 0)

/-- So the output block is stored at every tile: no tile leaves it idle. -/
theorem idle0_1 : ∀ t : Fin cfg0.N, cfg0.idle (1 : Fin 2) (cfg0.grid.coords t) = false :=
  (by decide +kernel : ∀ t : Fin grid0.N, idle0 1 (grid0.coords t) = false)
theorem live0_1 : ∀ i : grid0.Coords, cfg0.idle (1 : Fin 2) i = false :=
  (by decide +kernel : ∀ i : grid0.Coords, idle0 1 i = false)

/-- Input window 0's staging buffer holds its tile at every point, for any proof data whose array is the
    region's and whose body leaves the tile in place. -/
private theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- One store over the whole block covers it. -/
private theorem coverCols (p0 : Vec F S1x1024 .f32) (y : S1x1024.Idx) :
    ∃ pc ∈ ([⟨rCols, p0⟩] : List (View.Piece (Elt F) S1x1024 .f32)), y ∈ pc.1.set :=
  ⟨_, List.mem_singleton_self _, View.mem_set_unit_zero hz2 inb_S1x1024_S1x1024_0_0 y⟩

/-! ## The body's triple, branch by branch -/

set_option maxHeartbeats 1000000 in
/-- At the first tile (the first conditional taken, the second not) the body, on whole staging memrefs — the input's
    at its tile, the output's at anything — leaves the input's as it was and the output's at the tile's column maxima. -/
private theorem sound_kernel0_A (c : Dev nD) (E : Set ℕ) (i : grid0.Coords) (arg1 : Memref sig .tc .vmem S2048x1024 .f32) (harg1 : arg1.IsWhole)
    (arg2 : Memref sig .tc .vmem S1x1024 .f32) (harg2 : arg2.IsWhole) (hc1 : k0_cond1 i = 1#1) (hc2 : ¬ k0_cond2 i = 1#1)
    (x0 : Vec F S2048x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (colmaxFirst x0)) -∗ K ⟨⟩))
      ⊢ wp frame (wpE (defs₀ (F := F)) Variants.none c none) E (cc0__colmax_kernel i arg1 harg1 arg2 harg2) K := by
  simp only [cc0__colmax_kernel_eq_skeleton]; unfold cc0__colmax_kernel_skel
  unfold owns
  iintro ⟨⟨%f0, %hf0, H0⟩, ⟨%d1, %f1, -, H1⟩, Hk⟩
  subst hf0
  sl_exec (disch := first | exact hc1 | exact hc2)
  sl_step
  iapply Hk
  isplitl [H0]
  · iexists f0; isplitr; · ipureintro; rfl
    iexact H0
  iexists _; isplitr
  swap; · iexact H1
  ipureintro
  exact View.read_writes_eq_canon _ _ _ (coverCols _)

set_option maxHeartbeats 1000000 in
/-- At a later tile (the first conditional not taken, the second taken) the body, the output's buffer at `prev`,
    leaves the output's at the elementwise maximum of `prev` and the tile's column maxima. -/
private theorem sound_kernel0_B (c : Dev nD) (E : Set ℕ) (i : grid0.Coords) (arg1 : Memref sig .tc .vmem S2048x1024 .f32) (harg1 : arg1.IsWhole)
    (arg2 : Memref sig .tc .vmem S1x1024 .f32) (harg2 : arg2.IsWhole) (hc1 : ¬ k0_cond1 i = 1#1) (hc2 : k0_cond2 i = 1#1)
    (x0 : Vec F S2048x1024 .f32) (prev : Vec F S1x1024 .f32) (K : PUnit → sProp 𝕄) :
    iprop(owns (c : Thread nD τ) arg1 fullShare x0 ∗ owns (c : Thread nD τ) arg2 fullShare prev
        ∗ (iprop(owns (c : Thread nD τ) arg1 fullShare x0 ∗ owns (c : Thread nD τ) arg2 fullShare (colmaxNext x0 prev)) -∗ K ⟨⟩))
      ⊢ wp frame (wpE (defs₀ (F := F)) Variants.none c none) E (cc0__colmax_kernel i arg1 harg1 arg2 harg2) K := by
  simp only [cc0__colmax_kernel_eq_skeleton]; unfold cc0__colmax_kernel_skel
  unfold owns
  iintro ⟨⟨%f0, %hf0, H0⟩, ⟨%f1, %hf1, H1⟩, Hk⟩
  subst hf0; subst hf1
  sl_exec (disch := first | exact hc1 | exact hc2)
  sl_step
  iapply Hk
  isplitl [H0]
  · iexists f0; isplitr; · ipureintro; rfl
    iexact H0
  iexists _; isplitr
  swap; · iexact H1
  ipureintro
  exact View.read_writes_eq_canon _ _ _ (coverCols _)

/-! ## What the staging buffers hold when the body runs -/

/-- The running maxima at tile 0, and at a later tile from the tile before. -/
private theorem runningMax_first (c : Dev nD) (t : Fin cfg0.N) (h0 : t.val = 0) :
    runningMax V c t.val t.isLt = colmaxFirst (iblk0 V c 0 t) := by
  obtain ⟨n, hn⟩ := t
  dsimp only at h0
  subst h0
  rfl

private theorem runningMax_next (c : Dev nD) (t : Fin cfg0.N) (h0 : t.val ≠ 0) :
    runningMax V c t.val t.isLt
      = colmaxNext (iblk0 V c 0 t) (runningMax V c (t.val - 1) (Nat.lt_of_le_of_lt (Nat.sub_le _ _) t.isLt)) := by
  obtain ⟨n, hn⟩ := t
  cases n with
  | zero => exact absurd rfl h0
  | succ n => rfl

/-- The input's staging buffer holds its tile at every point. -/
private theorem before0_0 (c : Dev nD) (t : Fin cfg0.N) (d) : (dat0 V c).before 0 t d = iblk0 V c 0 t :=
  before0_0_of V (dat0 V c) (A_eq0 V c 0) (after0_0 V c) t d

/-- At a later tile the output's staging buffer holds what the tile before left: the tile is not the first, the
    buffer is written back only after the last tile, no tile leaves it idle and the window is uncut. -/
private theorem before0_1_next (c : Dev nD) (t : Fin cfg0.N) (h0 : t.val ≠ 0) (d) :
    (dat0 V c).before 1 t d = runningMax V c (t.val - 1) (Nat.lt_of_le_of_lt (Nat.sub_le _ _) t.isLt) := by
  have hN : t.val < 16 := lt_of_lt_of_eq t.isLt (show cfg0.N = 16 from N_0)
  rw [Dat.before_out_kept _ 1 rfl t h0 (Bool.eq_false_iff.mpr fun h => by have := (flush0_1 _).mp h; dsimp only at this; omega)
    live0_1 (fun _ _ => rfl)]
  dsimp only [dat0]

/-! ## The body obligation, at a generic tile -/

/-- What the body is called with at tile `t`, the windows one by one, -/
private def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
private def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

set_option maxHeartbeats 800000 in
/-- The body at any tile: the input's memref holds its tile; the closed forms of the conditions say which branch the
    tile takes; at a later tile the output's memref holds the maxima so far; so the branch's triple applies; the
    invariant and what the core owes pass through unread. -/
private theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  by_cases h0 : t.val = 0
  · rw [runningMax_first V c t h0]
    iintro ⟨HΦ, Ho, ⟨%d0, H0⟩, ⟨%d1, H1⟩⟩
    iapply (sound_kernel0_A c Set.univ (grid0.coords t) _ _ _ _ ((hcond1 t).mpr h0) (fun h => (hcond2 t).mp h h0) (iblk0 V c 0 t) _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · rw [runningMax_next V c t h0]
    simp only [before0_1_next V c t h0]
    iintro ⟨HΦ, Ho, ⟨%d0, H0⟩, ⟨%d1, H1⟩⟩
    iapply (sound_kernel0_B c Set.univ (grid0.coords t) _ _ _ _ (fun h => h0 ((hcond1 t).mp h)) ((hcond2 t).mpr h0) (iblk0 V c 0 t) _ _)
    isplitl [H0]; · iexact H0
    isplitl [H1]; · iexact H1
    iintro ⟨H0, H1⟩
    isplitl [HΦ]; · iexact HΦ
    isplitl [Ho]; · iexact Ho
    isplitl [H0]; · iexact H0
    iexact H1

/-- The library's body obligation for region 0, at every tile. -/
theorem body_obligation0 (c : Dev nD) : BodyObligation (dat0 (F := F) V c) (defs₀ (F := F)) Variants.none () Set.univ := fun t => by
  rw [bigSep_W0, bigSep_W0, idle0_1 t]
  exact sound_body0 V c t

end Cert.KernelIdeal.Frame

end
-- ==== Proof.KI.QuantBody.lean ====
/-
  Region 1 (quantize, multiply, dequantize) at any float instance: what its output block holds after each grid
  point, the proof data of its pipeline, and the body's obligation.

  The pass walks the 32768 x 1024 activation in 64 tiles of 512 rows. At each tile the body loads the tile and the
  four resident operands (the inverse smoothing scale, the quantized transposed weight, the weight's row scales,
  the bias), computes the tile's output rows as one pure function of those five blocks and stores it over the
  whole output block, which is written back at every tile. No tile depends on another.
-/
import proofs.«110519_j61314953118436_1_alg».proof.Proof.Gen.KernelIdeal.Launch
import proofs.«110519_j61314953118436_1_alg».proof.Proof.Gen.KernelIdeal.Skeleton
import proofs.«110519_j61314953118436_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every tile, fetched there or not. -/
private theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every tile, fetched there or not. -/
private theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every tile, fetched there or not. -/
private theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every tile, fetched there or not. -/
private theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every tile, fetched there or not. -/
private theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole blocks, as the rectangles the body loads and stores through. -/
abbrev rRows : Rect S512x1024 := Rect.unit (s := S512x1024) ![0, 0] S512x1024.size inb_S512x1024_S512x1024_0_0
abbrev rVec : Rect S1x1024 := Rect.unit (s := S1x1024) ![0, 0] S1x1024.size inb_S1x1024_S1x1024_0_0
abbrev rMat : Rect S1024x1024 := Rect.unit (s := S1024x1024) ![0, 0] S1024x1024.size inb_S1024x1024_S1024x1024_0_0

/-- What the body leaves in the output block, from the five input blocks: one store over the whole block. -/
def outBlock (x0 : Vec F S512x1024 .f32) (x1 : Vec F S1x1024 .f32) (x2 : Vec F S1024x1024 .bf16) (x3 : Vec F S1x1024 .f32) (x4 : Vec F S1x1024 .f32) :
    Vec F S512x1024 .f32 :=
  View.canon [⟨rRows, k1_pay1 (View.ld x0 rRows) (View.ld x1 rVec) (View.ld x2 rMat) (View.ld x3 rVec) (View.ld x4 rVec)⟩]

/-- The rank-2 zero offset, however it is spelt. -/
private theorem hz2 : (![0, 0] : Fin 2 → Nat) = fun _ => 0 := funext fun a => by fin_cases a <;> rfl

/-- One whole-block store over the whole block reads back as its payload. -/
theorem outBlock_eq (x0 : Vec F S512x1024 .f32) (x1 : Vec F S1x1024 .f32) (x2 : Vec F S1024x1024 .bf16) (x3 : Vec F S1x1024 .f32) (x4 : Vec F S1x1024 .f32) :
    outBlock x0 x1 x2 x3 x4 = k1_pay1 x0 x1 x2 x3 x4 := by
  unfold outBlock
  rw [View.canon_unit_zero (S := S512x1024) hz2 inb_S512x1024_S512x1024_0_0,
    View.ld_unit_zero (S := S512x1024) hz2 inb_S512x1024_S512x1024_0_0,
    View.ld_unit_zero (S := S1024x1024) hz2 inb_S1024x1024_S1024x1024_0_0]
  simp only [View.ld_unit_zero (S := S1x1024) hz2 inb_S1x1024_S1x1024_0_0]

/-! ## The body's triple -/

/-- The one store covers the whole output block. -/
private theorem cover1_5 (p0 : Vec F S512x1024 .f32) (y : S512x1024.Idx) :
    ∃ pc ∈ ([⟨rRows, p0⟩] : List (View.Piece (Elt F) S512x1024 .f32)), y ∈ pc.1.set :=
  ⟨_, List.mem_singleton_self _, View.mem_set_unit_zero (S := S512x1024) hz2 inb_S512x1024_S512x1024_0_0 y⟩

set_option maxHeartbeats 1000000 in
/-- The body on whole staging memrefs, the five inputs' at read contents and the output's at anything, runs to the
    continuation holding the inputs' as they were and the output's at `outBlock` of the inputs'. -/
private theorem sound_kernel1 (c : Dev nD) (E : Set ℕ) (i : grid1.Coords)
    (arg1 : Memref sig .tc .vmem S512x1024 .f32) (harg1 : arg1.IsWhole) (arg2 : Memref sig .tc .vmem S1x1024 .f32) (harg2 : arg2.IsWhole)
    (arg3 : Memref sig .tc .vmem S1024x1024 .bf16) (harg3 : arg3.IsWhole) (arg4 : Memref sig .tc .vmem S1x1024 .f32) (harg4 : arg4.IsWhole)
    (arg5 : Memref sig .tc .vmem S1x1024 .f32) (harg5 : arg5.IsWhole) (arg6 : Memref sig .tc .vmem S512x1024 .f32) (harg6 : arg6.IsWhole)
    (x0 : Vec F S512x1024 .f32) (x1 : Vec F S1x1024 .f32) (x2 : Vec F S1024x1024 .bf16) (x3 : Vec F S1x1024 .f32) (x4 : Vec F S1x1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E (cc1__qmm_kernel i arg1 harg1 arg2 harg2 arg3 harg3 arg4 harg4 arg5 harg5 arg6 harg6) K := by
  simp only [cc1__qmm_kernel_eq_skeleton]; unfold cc1__qmm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of pipeline 1 on core `c`: the arrays as the region finds them; after the body at tile `t` each
    input's buffer at its block and the output's at `outBlock` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outBlock (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = outBlock (iblk1 V c 0 t) (iblk1 V c 1 t) (iblk1 V c 2 t) (iblk1 V c 3 t) (iblk1 V c 4 t) := by dsimp only [dat1]

/-- Each input's current staging buffer holds its block at every tile. -/
private theorem before1_0 (c : Dev nD) (t : Fin cfg1.N) (d) : (dat1 V c).before 0 t d = iblk1 V c 0 t :=
  before1_0_of V (dat1 V c) (A_eq1 V c 0) (after1_0 V c) t d
private theorem before1_1 (c : Dev nD) (t : Fin cfg1.N) (d) : (dat1 V c).before 1 t d = iblk1 V c 1 t :=
  before1_1_of V (dat1 V c) (A_eq1 V c 1) (after1_1 V c) t d
private theorem before1_2 (c : Dev nD) (t : Fin cfg1.N) (d) : (dat1 V c).before 2 t d = iblk1 V c 2 t :=
  before1_2_of V (dat1 V c) (A_eq1 V c 2) (after1_2 V c) t d
private theorem before1_3 (c : Dev nD) (t : Fin cfg1.N) (d) : (dat1 V c).before 3 t d = iblk1 V c 3 t :=
  before1_3_of V (dat1 V c) (A_eq1 V c 3) (after1_3 V c) t d
private theorem before1_4 (c : Dev nD) (t : Fin cfg1.N) (d) : (dat1 V c).before 4 t d = iblk1 V c 4 t :=
  before1_4_of V (dat1 V c) (A_eq1 V c 4) (after1_4 V c) t d

/-! ## The body obligation, at a generic tile -/

/-- What the body is called with at tile `t`, the windows one by one, -/
private def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
private def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any tile: the inputs' memrefs hold their blocks, so the body's triple applies; the invariant and
    the core's debts pass through unread. -/
private theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for region 1, at every tile. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KI.TwoRegionRun.lean ====
/-
  The whole program at any float instance: @main as nine items in order (a host reshape, the column-maximum
  pass, five stretches of host arithmetic, the quantize-and-multiply pass, a host reshape), the contents of every
  buffer between two items as a fold from the launch memory, and the run: every weakly fair execution ends, faults
  nowhere, and leaves every buffer that outlives a pass at the last stage of that fold.

  The fold: a host stretch applies its operations to what it finds; a pass leaves each of its arrays at what its
  write-backs add up to (an input array as it was) and touches nothing else. No item writes an argument array, so
  each argument ends as launched: the frame.
-/
import proofs.«110519_j61314953118436_1_alg».proof.Proof.KI.ColMaxBody
import proofs.«110519_j61314953118436_1_alg».proof.Proof.KI.QuantBody
import proofs.«110519_j61314953118436_1_alg».proof.Proof.Gen.KernelIdeal.Regions

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch. -/
abbrev W0 (c : Dev nD) : Valuation τ sig (Elt F) := fun b => m (c, b)
/-- After the first reshape (the column-maximum pass's entry). -/
abbrev W1 (c : Dev nD) : Valuation τ sig (Elt F) := StableHlo.after hostOps0 (W0 m c)
/-- The same read at the TensorCore's references. -/
abbrev V1 : (c : Dev nD) → (b : Ref sig .tc) → Buf (Elt F) ((c : Thread nD τ).loc b) := fun c b => W1 m c b
/-- After the column-maximum pass: its arrays at what its write-backs leave, every other buffer as entered. -/
def W2 (c : Dev nD) : Valuation τ sig (Elt F) :=
  Pipeline.withArrays spec0 c (W1 m c) fun w => (dat0 (V1 m) c).arrAt w cfg0.N
/-- After each of the five host stretches between the passes. -/
abbrev W3 (c : Dev nD) : Valuation τ sig (Elt F) := StableHlo.after hostOps1 (W2 m c)
abbrev W4 (c : Dev nD) : Valuation τ sig (Elt F) := StableHlo.after hostOps1_1 (W3 m c)
abbrev W5 (c : Dev nD) : Valuation τ sig (Elt F) := StableHlo.after hostOps1_2 (W4 m c)
abbrev W6 (c : Dev nD) : Valuation τ sig (Elt F) := StableHlo.after hostOps1_3 (W5 m c)
abbrev W7 (c : Dev nD) : Valuation τ sig (Elt F) := StableHlo.after hostOps1_4 (W6 m c)
/-- The same read at the TensorCore's references (the quantize-and-multiply pass's entry). -/
abbrev V7 : (c : Dev nD) → (b : Ref sig .tc) → Buf (Elt F) ((c : Thread nD τ).loc b) := fun c b => W7 m c b
/-- After the quantize-and-multiply pass. -/
def W8 (c : Dev nD) : Valuation τ sig (Elt F) :=
  Pipeline.withArrays spec1 c (W7 m c) fun w => (dat1 (V7 m) c).arrAt w cfg1.N
/-- After the last reshape: what @main returns from. -/
abbrev W9 (c : Dev nD) : Valuation τ sig (Elt F) := StableHlo.after hostOps2 (W8 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W8_arr (c : Dev nD) (w : Fin cfg1.W) :
    W8 m c (Proc.devRef .tc (Pipeline.arrRef spec1 w)) = (dat1 (V7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb

/-- An unscoped TensorCore reference is among those the run accounts for. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## No item writes an argument -/

theorem W9_main_arg0 (c : Dev nD) : W9 m c (Proc.devRef .tc main_arg0) = m ((c : Thread nD τ).loc main_arg0) :=
  calc W9 m c (Proc.devRef .tc main_arg0)
    _ = W8 m c (Proc.devRef .tc main_arg0) := StableHlo.after_of_writes_sub hostOps2 _ hostOps2_writes (by decide)
    _ = W7 m c (Proc.devRef .tc main_arg0) := W8_of_ne m c main_arg0 (by decide)
    _ = W6 m c (Proc.devRef .tc main_arg0) := StableHlo.after_of_writes_sub hostOps1_4 _ hostOps1_4_writes (by decide)
    _ = W5 m c (Proc.devRef .tc main_arg0) := StableHlo.after_of_writes_sub hostOps1_3 _ hostOps1_3_writes (by decide)
    _ = W4 m c (Proc.devRef .tc main_arg0) := StableHlo.after_of_writes_sub hostOps1_2 _ hostOps1_2_writes (by decide)
    _ = W3 m c (Proc.devRef .tc main_arg0) := StableHlo.after_of_writes_sub hostOps1_1 _ hostOps1_1_writes (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W9_main_arg1 (c : Dev nD) : W9 m c (Proc.devRef .tc main_arg1) = m ((c : Thread nD τ).loc main_arg1) :=
  calc W9 m c (Proc.devRef .tc main_arg1)
    _ = W8 m c (Proc.devRef .tc main_arg1) := StableHlo.after_of_writes_sub hostOps2 _ hostOps2_writes (by decide)
    _ = W7 m c (Proc.devRef .tc main_arg1) := W8_of_ne m c main_arg1 (by decide)
    _ = W6 m c (Proc.devRef .tc main_arg1) := StableHlo.after_of_writes_sub hostOps1_4 _ hostOps1_4_writes (by decide)
    _ = W5 m c (Proc.devRef .tc main_arg1) := StableHlo.after_of_writes_sub hostOps1_3 _ hostOps1_3_writes (by decide)
    _ = W4 m c (Proc.devRef .tc main_arg1) := StableHlo.after_of_writes_sub hostOps1_2 _ hostOps1_2_writes (by decide)
    _ = W3 m c (Proc.devRef .tc main_arg1) := StableHlo.after_of_writes_sub hostOps1_1 _ hostOps1_1_writes (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W9_main_arg2 (c : Dev nD) : W9 m c (Proc.devRef .tc main_arg2) = m ((c : Thread nD τ).loc main_arg2) :=
  calc W9 m c (Proc.devRef .tc main_arg2)
    _ = W8 m c (Proc.devRef .tc main_arg2) := StableHlo.after_of_writes_sub hostOps2 _ hostOps2_writes (by decide)
    _ = W7 m c (Proc.devRef .tc main_arg2) := W8_of_ne m c main_arg2 (by decide)
    _ = W6 m c (Proc.devRef .tc main_arg2) := StableHlo.after_of_writes_sub hostOps1_4 _ hostOps1_4_writes (by decide)
    _ = W5 m c (Proc.devRef .tc main_arg2) := StableHlo.after_of_writes_sub hostOps1_3 _ hostOps1_3_writes (by decide)
    _ = W4 m c (Proc.devRef .tc main_arg2) := StableHlo.after_of_writes_sub hostOps1_2 _ hostOps1_2_writes (by decide)
    _ = W3 m c (Proc.devRef .tc main_arg2) := StableHlo.after_of_writes_sub hostOps1_1 _ hostOps1_1_writes (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-! ## The run -/

/-- Every pass's proof data, each at the contents its pass is entered with. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and the core
    owing nothing. -/
abbrev R (c : Dev nD) : sProp 𝕄 := iprop((∃ r, prngReg c r) ∗ ∃ W, owes (c : Thread nD τ) (0 : CellTallies nD τ sig Unit) W)
/-- A host stretch as a segment: from every unscoped buffer at `W` to them at the stretch applied to `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without what is owed: every unscoped buffer at `W9`, the generator register at some state. -/
abbrev Tₙ (c : Dev nD) : sProp 𝕄 := iprop(StableHlo.held (c : Thread nD τ) (Pipeline.ucRefs τ sig) (W9 m c) ∗ ∃ r, prngReg c r)

set_option backward.isDefEq.respectTransparency.types false in
/-- Pass 0 as a segment: entered with every unscoped buffer at `W1`, left with them at `W2`. At entry its
    arrays are split off the unscoped buffers and the generator register goes into the pass's invariant; at exit the
    arrays, now at what the write-backs leave, are put back beside the untouched rest. Nothing is owed and the pass
    has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (fun b => W2 m c b) ((pdats m 0 c).arrAt · cfg0.N) (fun w => (W2_arr m c w).symm)
      (fun b hb => W2_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 1 as a segment: entered with every unscoped buffer at `W7`, left with them at `W8`. At entry its
    arrays are split off the unscoped buffers and the generator register goes into the pass's invariant; at exit the
    arrays, now at what the write-backs leave, are put back beside the untouched rest. Nothing is owed and the pass
    has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (V7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V7 m c) (fun b => W8 m c b) ((pdats m 1 c).arrAt · cfg1.N) (fun w => (W8_arr m c w).symm)
      (fun b hb => W8_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's nine items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .host (hseg hostOps1_4 hostOps1_4_sub hostOps1_4_fresh (W6 m)),
    .region (reg1 m),
    .host (hseg hostOps2 hostOps2_sub hostOps2_fresh (W8 m)) ]
/-- @main is the run of those items: it is the chain of their fragments, and so is the segments' run. -/
theorem main_run (c : Dev nD) : main (F := F) c = Pipeline.Seg.run (segs m) := by
  rw [main_chain c, Pipeline.Seg.run_eq_chain]; rfl

set_option backward.isDefEq.respectTransparency.types false in
/-- Every weakly fair execution of @main from memory `m` with zero counters terminates, nothing faulting, and every
    final state holds every unscoped buffer at the last stage of the fold. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W9_main_arg0 m c),
     (h c _ (mem_uc main_arg1 (by decide))).trans (W9_main_arg1 m c),
     (h c _ (mem_uc main_arg2 (by decide))).trans (W9_main_arg2 m c)⟩) (run_all m ρ)

end Cert.KernelIdeal.Frame

end
-- ==== Proof.Spec.lean ====
/-
  The SmoothQuant linear layer as pure functions on extended reals, index by index, free of any tiling.

  For an activation x (M rows of 1024), a weight w (1024 rows of 1024) and a bias:
    colAbsMax x j    the largest |x r j| over the rows r: the supremum of the column;
    rowScale xr s    a row's quantization step: its largest |xr k * s k| over 127, floored at the tiny constant;
    quant xr s k     entry k of the row, scaled by s, divided by the row's step, rounded to the nearest integer
                     (ties to even) and clamped to [-127, 127];
    outRow ...       the row's product with the quantized weight, rescaled by the row's step and the weight's
                     per-column step, plus the bias.
  A maximum over a finite index set is stated as a supremum, so that it can be met from both sides by its
  universal property and not through any order of folding.
-/
import Idealize.ShloMosaic.PureOps.Ideal
import Idealize.ShloMosaic.PureOps.Ideal.Laws
import Idealize.ShloMosaic.Lib.ValueIdx

noncomputable section

namespace Cert.SmoothQuant

open Idealize.ShloMosaic

/-- The floor of every scale, 127 and -127, as the bit patterns both programs carry. -/
abbrev tiny : EReal := Ideal.ofBits .f32 0x2B8CBCCC#32
abbrev qhi : EReal := Ideal.ofBits .f32 0x42FE0000#32
abbrev qlo : EReal := Ideal.ofBits .f32 0xC2FE0000#32

/-- The pattern both programs start a maximum from is the bottom of the extended reals. -/
theorem negInf_eq_bot : Ideal.ofBits .f32 0xFF800000#32 = (⊥ : EReal) := by
  simp [Ideal.ofBits, Ideal.ieee]

/-- A maximum folded from the bottom over all of a finite index type is the supremum of the family. -/
theorem fold_max_bot_eq_iSup {n : ℕ} (f : Fin n → EReal) :
    (Finset.univ : Finset (Fin n)).fold max (⊥ : EReal) f = ⨆ k, f k := by
  -- the supremum of a finite family is by definition the fold of the join from the bottom; on a linear order the join is max
  rw [← Finset.sup_univ_eq_iSup]
  rfl

/-- The same from the bit pattern of minus infinity. -/
theorem fold_max_negInf_eq_iSup {n : ℕ} (f : Fin n → EReal) :
    (Finset.univ : Finset (Fin n)).fold max (Ideal.ofBits .f32 0xFF800000#32) f = ⨆ k, f k := by
  rw [negInf_eq_bot]; exact fold_max_bot_eq_iSup f

/-- |a| on the extended reals, as both programs compute it. -/
abbrev eabs (a : EReal) : EReal := max a (-a)

/-- The largest |x r j| over the rows. -/
def colAbsMax {M : ℕ} (x : Fin M → Fin 1024 → EReal) (j : Fin 1024) : EReal := ⨆ r : Fin M, eabs (x r j)

/-- A row's quantization step. -/
def rowScale (xr s : Fin 1024 → EReal) : EReal :=
  max (Ideal.div (⨆ k : Fin 1024, eabs (xr k * s k)) qhi) tiny

/-- A row's quantized entry. -/
def quant (xr s : Fin 1024 → EReal) (k : Fin 1024) : EReal :=
  min qhi (max qlo (Ideal.liftRound Ideal.roundHalfEven (Ideal.div (xr k * s k) (rowScale xr s))))

/-- A row of the layer's output: `wq k n` is the quantized weight at contraction index `k` and output column `n`. -/
def outRow (xr s : Fin 1024 → EReal) (wq : Fin 1024 → Fin 1024 → EReal) (ws bias : Fin 1024 → EReal) (n : Fin 1024) : EReal :=
  (∑ k : Fin 1024, quant xr s k * wq k n) * rowScale xr s * ws n + bias n

end Cert.SmoothQuant

end
-- ==== Proof.KI.ColMaxValue.lean ====
/-
  What the column-maximum pass leaves in its output array, at the ideal values: entry j is the largest |x r j|
  over all 32768 rows of the activation.

  The array is written back once, after the last tile, from a block that by then holds the running maxima over all
  16 tiles. Each tile's column maximum is a maximum folded from minus infinity over the tile's 2048 rows, that is
  the supremum over those rows; the running maximum after tile n is the supremum over tiles 0..n; every row lies
  in exactly one tile, so after the last tile it is the supremum over all rows. Both inequalities are by the
  supremum's universal property: no order of folding enters.
-/
import proofs.«110519_j61314953118436_1_alg».proof.Proof.KI.ColMaxBody
import proofs.«110519_j61314953118436_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Frame

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen Cert.SmoothQuant

variable (V : (c : Dev nD) → (b : Ref sig .tc) → Buf (Elt Ideal) ((c : Thread nD τ).loc b))

/-! ## Where the tiles sit in the array, and where the output block rests -/

/-- The index maps, decided once over the grid: tile t of the activation is its t-th block of 2048 rows, all columns;
    the output's block never moves. -/
private theorem idx_facts : ∀ t : Fin cfg0.N, win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, win0_0.index t (0 : Fin 2) = t.val ∧ win0_0.index t (1 : Fin 2) = 0
    ∧ win0_1.index t (0 : Fin 2) = 0 ∧ win0_1.index t (1 : Fin 2) = 0)

/-- Tile t's entry (p, j) is the array's entry (2048 t + p, j). -/
private theorem tile_apply (c : Dev nD) (t : Fin cfg0.N) (p : Fin 2048) (j : Fin 1024) (h : 2048 * t.val + p.val < 32768) :
    (iblk0 V c 0 t : S2048x1024.Idx → EReal) (ix2 p j)
      = (V c main_v0 : S32768x1024.Idx → EReal) (ix2 ⟨2048 * t.val + p.val, h⟩ j) := by
  obtain ⟨e0, e1, -, -⟩ := idx_facts t
  unfold iblk0
  rw [View.read_apply]
  show V c main_v0 (((cfg0.win 0).blk t).view.emb (ix2 p j)) = V c main_v0 _
  congr 1
  funext a; apply Fin.ext
  match a with
  | ⟨0, _⟩ => show win0_0.index t (0 : Fin 2) * 2048 + 1 * p.val = 2048 * t.val + p.val; rw [e0]; omega
  | ⟨1, _⟩ => show win0_0.index t (1 : Fin 2) * 1024 + 1 * j.val = j.val; rw [e1]; omega

/-! ## The array after the run is the block after the last tile -/

private theorem last_lt : 15 < cfg0.N := by rw [show cfg0.N = 16 from N_0]; decide

/-- The last grid point. -/
private abbrev tLast : Fin cfg0.N := ⟨15, last_lt⟩

/-- What the output block holds after the last tile, as contents of the output array (the block is the whole array). -/
private abbrev finalBlock (c : Dev nD) : Buf (Elt Ideal) ((c : Thread nD τ).loc main_v1) := runningMax V c 15 last_lt

/-- The one write-back, after the last tile, writes that: block (0, 0) of the 1 x 1024 array read at zero offsets
    is the array itself. -/
private theorem flushed_eq (c : Dev nD) (t : Fin cfg0.N) (hf : (cfg0.win 1).flush t = true) :
    (dat0 (F := Ideal) V c).flushed 1 t = ((cfg0.win 1).blk t).view.read (Elt Ideal) (finalBlock V c) := by
  have hN : cfg0.N = 16 := N_0
  have h15 : t.val = 15 := by have := (flush0_1 t).mp hf; have := t.isLt; omega
  obtain rfl : t = tLast := Fin.ext h15
  show (cfg0.win 1).cut (grid0.coords tLast) ((dat0 (F := Ideal) V c).after 1 tLast) = _
  rw [after0_1]
  obtain ⟨-, -, e0, e1⟩ := idx_facts tLast
  have hz : (fun a => win0_1.index tLast a * main_v1.ty.shape.size a) = fun _ => 0 := funext fun a => by
    match a with
    | ⟨0, _⟩ => show win0_1.index tLast (0 : Fin 2) * 1 = 0; rw [e0]
    | ⟨1, _⟩ => show win0_1.index tLast (1 : Fin 2) * 1024 = 0; rw [e1]
  exact (Memref.read_access_unit_zero (Elt Ideal) main_v1 hz (fun a => by rw [congrFun hz a]; simp) (finalBlock V c)).symm

/-- So the array ends at what the block holds after the last tile: that point's block covers it. -/
private theorem array_eq_finalBlock (c : Dev nD) : (dat0 (F := Ideal) V c).arrAt 1 cfg0.N = finalBlock V c :=
  (dat0 (F := Ideal) V c).arrAt_eq_of_cover 1 (finalBlock V c) (flushed_eq V c) fun i => by
    refine ⟨tLast, (flush0_1 tLast).mpr rfl, ?_⟩
    show i ∈ ((View.whole main_v1).slice (win0_1.rect tLast)).set
    rw [View.set_slice_whole, Rect.mem_set_unit]
    obtain ⟨-, -, e0, e1⟩ := idx_facts tLast
    have h0 : (i 0 : Nat) < 1 := (i 0).isLt
    have h1 : (i 1 : Nat) < 1024 := (i 1).isLt
    intro a
    match a with
    | ⟨0, _⟩ =>
      show win0_1.index tLast (0 : Fin 2) * 1 ≤ (i 0 : Nat) ∧ (i 0 : Nat) < win0_1.index tLast (0 : Fin 2) * 1 + 1
      rw [e0]; omega
    | ⟨1, _⟩ =>
      show win0_1.index tLast (1 : Fin 2) * 1024 ≤ (i 1 : Nat) ∧ (i 1 : Nat) < win0_1.index tLast (1 : Fin 2) * 1024 + 1024
      rw [e1]; omega

/-! ## A tile's payload at a column -/

/-- The first tile's payload at column j: the supremum over the tile's rows of |x|. The lane maximum is the fold of
    max from minus infinity over the reduced axis, and |a| is max a (-a). -/
private theorem pay1_apply (x0 : Vec Ideal S2048x1024 .f32) (j : Fin 1024) :
    (k0_pay1 x0 : S1x1024.Idx → EReal) (ix2 0 j) = ⨆ p : Fin 2048, eabs ((x0 : S2048x1024.Idx → EReal) (ix2 p j)) := by
  unfold k0_pay1
  dsimp only
  rw [shapeCast_addUnit_apply, shapeCast_self]
  refine (Ideal.multiReduction_maximumf_single (φ := .f32) _ _ reduces_S2048x1024_S1024 _ _ _).trans ?_
  have hl : ∀ p : Fin 2048, reduces_S2048x1024_S1024.lift (fun a => (ix2 (0 : Fin 1) j : S1x1024.Idx) a.succ) p = ix2 p j := by
    intro p; funext a
    match a with
    | ⟨0, _⟩ => rfl
    | ⟨1, _⟩ => rfl
  refine (fold_max_negInf_eq_iSup (n := 2048) _).trans (iSup_congr fun p => ?_)
  show eabs (x0 (reduces_S2048x1024_S1024.lift (fun a => (ix2 (0 : Fin 1) j : S1x1024.Idx) a.succ) p)) = _
  rw [hl]

/-- A later tile's payload at column j: what the block held joined with the tile's supremum. -/
private theorem pay2_apply (x0 : Vec Ideal S2048x1024 .f32) (prev : Vec Ideal S1x1024 .f32) (j : Fin 1024) :
    (k0_pay2 x0 prev : S1x1024.Idx → EReal) (ix2 0 j)
      = max ((prev : S1x1024.Idx → EReal) (ix2 0 j)) (⨆ p : Fin 2048, eabs ((x0 : S2048x1024.Idx → EReal) (ix2 p j))) := by
  unfold k0_pay2
  rw [shapeCast_self, ← pay1_apply]
  rfl

/-! ## The running maximum is the supremum over the rows seen so far -/

/-- The supremum of |x| over one tile's rows, at column j. -/
private abbrev tileSup (c : Dev nD) (t : Fin cfg0.N) (j : Fin 1024) : EReal :=
  ⨆ p : Fin 2048, eabs ((iblk0 V c 0 t : S2048x1024.Idx → EReal) (ix2 p j))

/-- The supremum of |x| over all rows of the array, at column j. -/
private abbrev allSup (c : Dev nD) (j : Fin 1024) : EReal :=
  ⨆ r : Fin 32768, eabs ((V c main_v0 : S32768x1024.Idx → EReal) (ix2 r j))

/-- After tile 0 the block holds that tile's supremum. -/
private theorem running_zero (c : Dev nD) (h0 : 0 < cfg0.N) (j : Fin 1024) :
    (runningMax V c 0 h0 : S1x1024.Idx → EReal) (ix2 0 j) = tileSup V c ⟨0, h0⟩ j := by
  rw [runningMax_zero, colmaxFirst_eq, pay1_apply]

/-- After a later tile it holds what it held joined with that tile's supremum. -/
private theorem running_succ (c : Dev nD) (n : ℕ) (hn : n + 1 < cfg0.N) (j : Fin 1024) :
    (runningMax V c (n + 1) hn : S1x1024.Idx → EReal) (ix2 0 j)
      = max ((runningMax V c n (Nat.lt_of_succ_lt hn) : S1x1024.Idx → EReal) (ix2 0 j)) (tileSup V c ⟨n + 1, hn⟩ j) := by
  rw [runningMax_succ, colmaxNext_eq, pay2_apply]

/-- Every row of a tile is a row of the array: a tile's supremum is below the array's. -/
private theorem tileSup_le (c : Dev nD) (t : Fin cfg0.N) (j : Fin 1024) : tileSup V c t j ≤ allSup V c j := by
  have hN : cfg0.N = 16 := N_0
  refine iSup_le fun p => ?_
  have ht := t.isLt
  have hp := p.isLt
  rw [tile_apply V c t p j (by omega)]
  exact le_iSup (fun r : Fin 32768 => eabs ((V c main_v0 : S32768x1024.Idx → EReal) (ix2 r j))) _

/-- Every row of the array is a row of the tile numbered by its quotient by 2048: |x r j| is below that tile's supremum. -/
private theorem le_tileSup (c : Dev nD) (r : Fin 32768) (j : Fin 1024) (hq : r.val / 2048 < cfg0.N) :
    eabs ((V c main_v0 : S32768x1024.Idx → EReal) (ix2 r j)) ≤ tileSup V c ⟨r.val / 2048, hq⟩ j := by
  have hr := r.isLt
  have hm : r.val % 2048 < 2048 := Nat.mod_lt _ (by decide)
  have hd : 2048 * (r.val / 2048) + r.val % 2048 = r.val := Nat.div_add_mod r.val 2048
  have e := tile_apply V c ⟨r.val / 2048, hq⟩ ⟨r.val % 2048, hm⟩ j (by show 2048 * (r.val / 2048) + r.val % 2048 < 32768; omega)
  have er : (⟨2048 * (r.val / 2048) + r.val % 2048, by omega⟩ : Fin 32768) = r := Fin.ext hd
  rw [er] at e
  rw [← e]
  exact le_iSup (fun p : Fin 2048 => eabs ((iblk0 V c 0 ⟨r.val / 2048, hq⟩ : S2048x1024.Idx → EReal) (ix2 p j))) ⟨r.val % 2048, hm⟩

/-- The running maximum never exceeds the supremum over all rows. -/
private theorem running_le (c : Dev nD) (j : Fin 1024) : ∀ (n : ℕ) (hn : n < cfg0.N),
    (runningMax V c n hn : S1x1024.Idx → EReal) (ix2 0 j) ≤ allSup V c j
  | 0, hn => by rw [running_zero]; exact tileSup_le V c _ j
  | n + 1, hn => by rw [running_succ]; exact max_le (running_le c j n _) (tileSup_le V c _ j)

/-- After tile n it is above |x r j| for every row r of tiles 0..n. -/
private theorem le_running (c : Dev nD) (r : Fin 32768) (j : Fin 1024) : ∀ (n : ℕ) (hn : n < cfg0.N), r.val / 2048 ≤ n →
    eabs ((V c main_v0 : S32768x1024.Idx → EReal) (ix2 r j)) ≤ (runningMax V c n hn : S1x1024.Idx → EReal) (ix2 0 j)
  | 0, hn, hr => by
    rw [running_zero]
    have h0 : r.val / 2048 = 0 := Nat.le_zero.mp hr
    have := le_tileSup V c r j (by rw [h0]; exact hn)
    simpa only [h0] using this
  | n + 1, hn, hr => by
    rw [running_succ]
    rcases Nat.lt_or_ge (r.val / 2048) (n + 1) with hlt | hge
    · exact le_trans (le_running c r j n _ (Nat.lt_succ_iff.mp hlt)) (le_max_left _ _)
    · have hq : r.val / 2048 = n + 1 := le_antisymm hr hge
      have := le_tileSup V c r j (by rw [hq]; exact hn)
      refine le_trans ?_ (le_max_right _ _)
      simpa only [hq] using this

/-- The pass's output array after the run: the column maxima of |x| over all rows of the array it read. -/
theorem colmax_array (c : Dev nD) (y : S1x1024.Idx) :
    ((dat0 (F := Ideal) V c).arrAt 1 cfg0.N : S1x1024.Idx → EReal) y
      = colAbsMax (fun (r : Fin 32768) (j : Fin 1024) => (V c main_v0 : S32768x1024.Idx → EReal) (ix2 r j)) (y 1) := by
  obtain ⟨p, q, rfl⟩ : ∃ (p : Fin 1) (q : Fin 1024), y = ix2 p q := ⟨y 0, y 1, eq_ix2 y⟩
  obtain rfl : p = 0 := Subsingleton.elim _ _
  rw [array_eq_finalBlock]
  show (runningMax V c 15 last_lt : S1x1024.Idx → EReal) (ix2 0 q) = allSup V c q
  refine le_antisymm (running_le V c q 15 last_lt) (iSup_le fun r => le_running V c r q 15 last_lt ?_)
  have := r.isLt
  omega

end Cert.KernelIdeal.Frame

end
-- ==== Proof.RefValue.lean ====
/-
  The reference's result as the layer's pure functions of the argument arrays, at the ideal values.

  Column j of the reference's column maximum is a maximum folded from minus infinity over the 32768 rows of |x|:
  the supremum of the column. Entry (r, n) of its output before the last reshape is the output row function of
  row r of the reshaped activation, the inverse smoothing scale, the quantized transposed weight, the weight's
  row scales and the bias: the row's largest |x k * s k| is again a supremum, the product with the weight a sum
  over the 1024 contraction indices.
-/
import proofs.«110519_j61314953118436_1_alg».proof.Defs
import proofs.«110519_j61314953118436_1_alg».proof.Proof.Gen.ReferenceIdeal
import proofs.«110519_j61314953118436_1_alg».proof.Proof.Gen.ReferenceIdeal.Run
import proofs.«110519_j61314953118436_1_alg».proof.Proof.Gen.ReferenceIdeal.Read
import proofs.«110519_j61314953118436_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Idealize.ShloMosaic Idealize.ShloMosaic.TcCoe
open Idealize.ShloMosaic.ValueIdx
open Cert.ReferenceIdeal Cert.ReferenceIdeal.Gen Cert.ReferenceIdeal.Read Cert.SmoothQuant

/-- The column axis of the reshaped activation drops onto the columns. -/
private theorem red_d0 : S32768x1024.Reduces [0] S1024 := by decide

/-- The reference's column maximum is the supremum of each column of |x|. -/
theorem ref_colmax (x0 : (⟨S4x8192x1024, .f32⟩ : BufTy).Contents (Elt Ideal)) (j : Fin 1024) :
    (val_main_v2 (F := Ideal) x0 : S1024.Idx → EReal) (ix1 j)
      = colAbsMax (fun (r : Fin 32768) (k : Fin 1024) => (val_main_v0 (F := Ideal) x0 : S32768x1024.Idx → EReal) (ix2 r k)) j := by
  -- the reduction over the row axis is a maximum folded from minus infinity over the rows of the column
  unfold val_main_v2
  rw [Host.reduce_eq_fold_single FloatOps.maximumf _ _ reducesTo_S32768x1024_S1024_d0 red_d0 h_S_ (ix1 j)]
  unfold colAbsMax
  -- the source index over column j at row r is (r, j)
  have e : ∀ r : Fin 32768, red_d0.lift (ix1 j) r = ix2 r j := fun r => funext fun a => Fin.ext (by
    match a with
    | ⟨0, _⟩ => rfl
    | ⟨1, _⟩ => rfl)
  -- a maximum folded from minus infinity is the supremum; |a| is max a (-a)
  refine (fold_max_negInf_eq_iSup (n := 32768) (fun r => (val_main_v1 (F := Ideal) x0 : S32768x1024.Idx → EReal) (red_d0.lift (ix1 j) r))).trans ?_
  refine congrArg iSup (funext fun r => ?_)
  rw [e r]
  rfl

/-- The contraction axis of the reshaped activation drops onto the rows. -/
private theorem red_d1 : S32768x1024.Reduces [1] S32768 := by decide

/-- Entry (r, k) of the smoothed activation: the activation's entry times the inverse smoothing scale at k. -/
private theorem v13_entry (x0 : (⟨S4x8192x1024, .f32⟩ : BufTy).Contents (Elt Ideal)) (x1 : (⟨S1024x1024, .f32⟩ : BufTy).Contents (Elt Ideal))
    (r : Fin 32768) (k : Fin 1024) :
    (val_main_v13 (F := Ideal) x0 x1 : S32768x1024.Idx → EReal) (ix2 r k)
      = (val_main_v0 (F := Ideal) x0 : S32768x1024.Idx → EReal) (ix2 r k) * (val_main_v10 (F := Ideal) x0 x1 : S1024.Idx → EReal) (ix1 k) := by
  rw [val_main_v13_apply, val_main_v12_apply, val_main_v11_apply]
  have e : idx_main_v11 (idx_main_v12 (ix2 r k)) = ix1 k := funext fun a => Fin.ext (by
    match a with
    | ⟨0, _⟩ => rfl)
  rw [e]
  rfl

/-- Row r's quantization step: the row's largest |x k * s k| over 127, floored at the tiny constant. -/
private theorem v19_entry (x0 : (⟨S4x8192x1024, .f32⟩ : BufTy).Contents (Elt Ideal)) (x1 : (⟨S1024x1024, .f32⟩ : BufTy).Contents (Elt Ideal))
    (r : Fin 32768) :
    (val_main_v19 (F := Ideal) x0 x1 : S32768.Idx → EReal) (ix1 r)
      = rowScale (fun k => (val_main_v0 (F := Ideal) x0 : S32768x1024.Idx → EReal) (ix2 r k))
          (fun k => (val_main_v10 (F := Ideal) x0 x1 : S1024.Idx → EReal) (ix1 k)) := by
  rw [val_main_v19_apply, val_main_v17_apply, val_main_v18_apply, val_main_v16_apply, val_main_cst_5_apply, val_main_cst_4_apply]
  -- the reduction over the contraction axis is a maximum folded from minus infinity over the row
  unfold val_main_v15
  rw [Host.reduce_eq_fold_single FloatOps.maximumf _ _ reducesTo_S32768x1024_S32768_d1 red_d1 h_S_ (ix1 r)]
  unfold rowScale
  -- the source index over row r at column k is (r, k)
  have e : ∀ k : Fin 1024, red_d1.lift (ix1 r) k = ix2 r k := fun k => funext fun a => Fin.ext (by
    match a with
    | ⟨0, _⟩ => rfl
    | ⟨1, _⟩ => rfl)
  have hsup : (Finset.univ : Finset (Fin 1024)).fold max (Ideal.ofBits .f32 0xFF800000#32)
        (fun k => (val_main_v14 (F := Ideal) x0 x1 : S32768x1024.Idx → EReal) (red_d1.lift (ix1 r) k))
      = ⨆ k : Fin 1024, eabs ((val_main_v0 (F := Ideal) x0 : S32768x1024.Idx → EReal) (ix2 r k) * (val_main_v10 (F := Ideal) x0 x1 : S1024.Idx → EReal) (ix1 k)) :=
    (fold_max_negInf_eq_iSup (n := 1024) _).trans (congrArg iSup (funext fun k => by
      rw [e k, val_main_v14_apply, v13_entry]
      rfl))
  exact congrArg (fun z => max (Ideal.div z qhi) tiny) hsup

/-- Entry (r, k) of the quantized activation. -/
private theorem v24_entry (x0 : (⟨S4x8192x1024, .f32⟩ : BufTy).Contents (Elt Ideal)) (x1 : (⟨S1024x1024, .f32⟩ : BufTy).Contents (Elt Ideal))
    (r : Fin 32768) (k : Fin 1024) :
    (val_main_v24 (F := Ideal) x0 x1 : S32768x1024.Idx → EReal) (ix2 r k)
      = quant (fun k => (val_main_v0 (F := Ideal) x0 : S32768x1024.Idx → EReal) (ix2 r k))
          (fun k => (val_main_v10 (F := Ideal) x0 x1 : S1024.Idx → EReal) (ix1 k)) k := by
  rw [val_main_v24_apply, val_main_call1_v4_apply, val_main_call1_v3_apply, val_main_cst_7_apply,
    val_main_call1_v2_apply, val_main_call1_v1_apply, val_main_call1_v0_apply, val_main_cst_6_apply,
    val_main_v23_apply, val_main_v22_apply, val_main_v21_apply, val_main_v20_apply, v13_entry]
  have e : idx_main_v20 (idx_main_v21 (ix2 r k)) = ix1 r := funext fun a => Fin.ext (by
    match a with
    | ⟨0, _⟩ => rfl)
  rw [e, v19_entry]
  rfl

/-- The reference's output before the last reshape, entry by entry: the output row function of the row, over the
    reference's own inverse smoothing scale (`val_main_v10`), quantized transposed weight (`val_main_v39`) and weight
    row scales (`val_main_v33`), carried as they are. -/
theorem ref_rows (x0 : (⟨S4x8192x1024, .f32⟩ : BufTy).Contents (Elt Ideal)) (x1 : (⟨S1024x1024, .f32⟩ : BufTy).Contents (Elt Ideal))
    (x2 : (⟨S1024, .f32⟩ : BufTy).Contents (Elt Ideal)) (r : Fin 32768) (n : Fin 1024) :
    (val_main_v49 (F := Ideal) x0 x1 x2 : S32768x1024.Idx → EReal) (ix2 r n)
      = outRow (fun k => (val_main_v0 (F := Ideal) x0 : S32768x1024.Idx → EReal) (ix2 r k))
          (fun k => (val_main_v10 (F := Ideal) x0 x1 : S1024.Idx → EReal) (ix1 k))
          (fun k n' => (val_main_v39 (F := Ideal) x0 x1 : S1024x1024.Idx → EReal) (ix2 k n'))
          (fun n' => (val_main_v33 (F := Ideal) x0 x1 : S1024.Idx → EReal) (ix1 n'))
          (fun n' => (x2 : S1024.Idx → EReal) (ix1 n')) n := by
  rw [val_main_v49_apply, val_main_v48_apply, val_main_v47_apply, val_main_v46_apply, val_main_v45_apply, val_main_v44_apply,
    val_main_v43_apply, val_main_v42_apply, val_main_v41_apply, val_main_v40_apply]
  -- the broadcasts read the bias and the weight's row scale at column n, the row's step at row r
  have e1 : idx_main_v47 (idx_main_v48 (ix2 r n)) = ix1 n := funext fun a => Fin.ext (by
    match a with
    | ⟨0, _⟩ => rfl)
  have e2 : idx_main_v44 (idx_main_v45 (ix2 r n)) = ix1 n := funext fun a => Fin.ext (by
    match a with
    | ⟨0, _⟩ => rfl)
  have e3 : idx_main_v41 (idx_main_v42 (ix2 r n)) = ix1 r := funext fun a => Fin.ext (by
    match a with
    | ⟨0, _⟩ => rfl)
  -- the contraction reads the quantized activation at (r, k) and the quantized weight at (k, n)
  have el : ∀ k : Fin 1024, lidx_main_v40 (ix2 r n) k = ix2 r k := fun k => funext fun a => Fin.ext (by
    match a with
    | ⟨0, _⟩ => rfl
    | ⟨1, _⟩ => rfl)
  have er : ∀ k : Fin 1024, ridx_main_v40 (ix2 r n) k = ix2 k n := fun k => funext fun a => Fin.ext (by
    match a with
    | ⟨0, _⟩ => rfl
    | ⟨1, _⟩ => rfl)
  rw [e1, e2, e3, v19_entry]
  simp only [el, er, v24_entry]
  rfl

end Cert.ReferenceIdeal.RefValue

end
-- ==== Proof.KI.EntryMeets.lean ====
/-
  Where the kernel's first pass meets the reference, at the ideal values.

  Both programs begin by reshaping the activation to 32768 x 1024, and nothing before the second pass writes that
  array, so both passes read the reference's reshaped activation. The first pass leaves in its output array the
  supremum of each column of |x| (taken tile by tile); the reference's one reduction over all rows is the same
  supremum: column by column the two column maxima are equal.
-/
import proofs.«110519_j61314953118436_1_alg».proof.Proof.KI.TwoRegionRun
import proofs.«110519_j61314953118436_1_alg».proof.Proof.KI.ColMaxValue
import proofs.«110519_j61314953118436_1_alg».proof.Proof.RefValue
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Frame

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen Cert.SmoothQuant

variable (m : (ℓ : Loc nD τ sig) → Buf (Elt Ideal) ℓ)

/-- The three launch arguments on core `c`. -/
abbrev arg0 (c : Dev nD) := m ((c.tc : Thread nD τ).loc main_arg0)
abbrev arg1 (c : Dev nD) := m ((c.tc : Thread nD τ).loc main_arg1)
abbrev arg2 (c : Dev nD) := m ((c.tc : Thread nD τ).loc main_arg2)

/-- The activation as the first pass finds it is the reference's reshaped activation. -/
theorem act_entry (c : Dev nD) :
    (V1 (F := Ideal) m c main_v0 : S32768x1024.Idx → EReal) = Cert.ReferenceIdeal.Read.val_main_v0 (F := Ideal) (arg0 m c) := by
  -- the one operation before the first pass is the reshape of the launch argument, and the reference's is the same
  show StableHlo.after hostOps0 (W0 m c) (Proc.devRef .tc main_v0) = _
  after_results
  rfl

/-- The second pass finds it unchanged. -/
theorem act_kept (c : Dev nD) :
    (V7 (F := Ideal) m c main_v0 : S32768x1024.Idx → EReal) = (V1 (F := Ideal) m c main_v0 : S32768x1024.Idx → EReal) := by
  show W7 m c (Proc.devRef .tc main_v0) = W1 m c (Proc.devRef .tc main_v0)
  -- none of the five host stretches between the passes writes the array; the first pass reads it and leaves it as it was
  calc W7 m c (Proc.devRef .tc main_v0)
    _ = W6 m c (Proc.devRef .tc main_v0) := StableHlo.after_of_writes_sub hostOps1_4 _ hostOps1_4_writes (by decide)
    _ = W5 m c (Proc.devRef .tc main_v0) := StableHlo.after_of_writes_sub hostOps1_3 _ hostOps1_3_writes (by decide)
    _ = W4 m c (Proc.devRef .tc main_v0) := StableHlo.after_of_writes_sub hostOps1_2 _ hostOps1_2_writes (by decide)
    _ = W3 m c (Proc.devRef .tc main_v0) := StableHlo.after_of_writes_sub hostOps1_1 _ hostOps1_1_writes (by decide)
    _ = W2 m c (Proc.devRef .tc main_v0) := StableHlo.after_of_writes_sub hostOps1 _ hostOps1_writes (by decide)
    _ = (dat0 (V1 m) c).arrAt 0 cfg0.N := W2_arr m c 0
    _ = (dat0 (V1 m) c).A 0 := (dat0 (V1 m) c).arrAt_in 0 rfl _
    _ = W1 m c (Proc.devRef .tc main_v0) := A_eq0 (V1 m) c 0

/-- Column by column, what the first pass leaves is the reference's column maximum. -/
theorem colmax_meets (c : Dev nD) (j : Fin 1024) :
    (W2 (F := Ideal) m c (Proc.devRef .tc main_v1) : S1x1024.Idx → EReal) (ix2 0 j)
      = (Cert.ReferenceIdeal.Read.val_main_v2 (F := Ideal) (arg0 m c) : S1024.Idx → EReal) (ix1 j) := by
  -- the pass's output array holds each column's supremum of |x| over the array it read, which is the reference's
  -- reshaped activation; the reference's reduction over the rows is the same supremum
  have hout : W2 (F := Ideal) m c (Proc.devRef .tc main_v1) = (dat0 (V1 m) c).arrAt 1 cfg0.N := W2_arr m c 1
  rw [Cert.ReferenceIdeal.RefValue.ref_colmax, ← act_entry m c]
  exact (congrFun hout (ix2 0 j)).trans (colmax_array (V1 m) c (ix2 0 j))

end Cert.KernelIdeal.Frame

end
-- ==== Proof.KI.OperandsMeet.lean ====
/-
  The operands the host computes between the two passes are the reference's, at the ideal values.

  Between the passes the host applies to the weight and to the first pass's column maxima the same operations, in
  the same order, as the reference applies to the weight and to its own column maxima: the smoothing scale and its
  inverse, the scaled weight, its row maxima and steps, the rounded and clamped quotient, its transpose. The two
  column maxima are equal, so each operand the second pass reads is the reference's stage of the same name in the
  mathematics: the inverse smoothing scale, the quantized transposed weight (a change of float format on the way
  is the identity here), the weight's row steps, and the bias reshaped.
-/
import proofs.«110519_j61314953118436_1_alg».proof.Proof.KI.EntryMeets
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frame

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen Cert.SmoothQuant

variable (m : (ℓ : Loc nD τ sig) → Buf (Elt Ideal) ℓ)

/-! ## The host arithmetic between the passes, as functions of the column maxima and the weight -/

section Chain

variable {F : FTy → Type} [FloatOps F]

/-- A vector over the 1024 columns, and a 1024 x 1024 matrix. -/
private abbrev ColVec (F : FTy → Type) : Type := (⟨S1024, .f32⟩ : BufTy).Contents (Elt F)
private abbrev Mat (F : FTy → Type) : Type := (⟨S1024x1024, .f32⟩ : BufTy).Contents (Elt F)

/-- The smoothing scale: per column the square root of (largest |x|) * (largest |w|) floored at the tiny constant. -/
private def smooth (cm : ColVec F) (w : Mat F) : ColVec F :=
  (Host.sqrt : ColVec F → ColVec F) ((maximumf : ColVec F → ColVec F → ColVec F)
    ((mulf : ColVec F → ColVec F → ColVec F) cm
      (Host.reduce FloatOps.maximumf ((Host.absf : Mat F → Mat F) w) (constant S_ .f32 0xFF800000#32) reducesTo_S1024x1024_S1024_d0 h_S_))
    (broadcastInDim S1024 ![] bcast_S_S1024 (constant S_ .f32 0x2B8CBCCC#32)))

/-- Its inverse: what the activation is multiplied by. -/
private def invSmooth (cm : ColVec F) (w : Mat F) : ColVec F :=
  (Host.divf : ColVec F → ColVec F → ColVec F) (broadcastInDim S1024 ![] bcast_S_S1024 (constant S_ .f32 0x3F800000#32)) (smooth cm w)

/-- The weight with each column multiplied by the smoothing scale. -/
private def smoothedW (cm : ColVec F) (w : Mat F) : Mat F :=
  (mulf : Mat F → Mat F → Mat F) w
    (broadcastInDim S1024x1024 ![0, 1] bcast_S1x1024_S1024x1024_0_1 (broadcastInDim S1x1024 ![1] bcast_S1024_S1x1024_1 (smooth cm w)))

/-- The smoothed weight's quantization step per row: its largest entry in absolute value over 127, floored at tiny. -/
private def wStep (cm : ColVec F) (w : Mat F) : ColVec F :=
  (maximumf : ColVec F → ColVec F → ColVec F)
    ((Host.divf : ColVec F → ColVec F → ColVec F)
      (Host.reduce FloatOps.maximumf ((Host.absf : Mat F → Mat F) (smoothedW cm w)) (constant S_ .f32 0xFF800000#32) reducesTo_S1024x1024_S1024_d1 h_S_)
      (broadcastInDim S1024 ![] bcast_S_S1024 (constant S_ .f32 0x42FE0000#32)))
    (broadcastInDim S1024 ![] bcast_S_S1024 (constant S_ .f32 0x2B8CBCCC#32))

/-- The smoothed weight divided by its row's step, rounded and clamped to [-127, 127]. -/
private def wQuant (cm : ColVec F) (w : Mat F) : Mat F :=
  (minimumf : Mat F → Mat F → Mat F) (broadcastInDim S1024x1024 ![] bcast_S_S1024x1024 (id (constant S_ .f32 0x42FE0000#32)))
    ((maximumf : Mat F → Mat F → Mat F) (broadcastInDim S1024x1024 ![] bcast_S_S1024x1024 (id (constant S_ .f32 0xC2FE0000#32)))
      ((Host.roundeven : Mat F → Mat F) ((Host.divf : Mat F → Mat F → Mat F) (smoothedW cm w)
        (broadcastInDim S1024x1024 ![0, 1] bcast_S1024x1_S1024x1024_0_1 (broadcastInDim S1024x1 ![0] bcast_S1024_S1024x1_0 (wStep cm w))))))

/-- And transposed: the second pass's weight operand, contraction index first. -/
private def wQuantT (cm : ColVec F) (w : Mat F) : Mat F :=
  transpose S1024x1024 [1, 0] (wQuant cm w) transposes_S1024x1024_S1024x1024_1_0

/-! ### The reference applies them to its own column maxima -/

private theorem ref_v10 (x0 : (⟨S4x8192x1024, .f32⟩ : BufTy).Contents (Elt F)) (x1 : Mat F) :
    Cert.ReferenceIdeal.Read.val_main_v10 (F := F) x0 x1 = invSmooth (Cert.ReferenceIdeal.Read.val_main_v2 (F := F) x0) x1 := rfl
private theorem ref_v33 (x0 : (⟨S4x8192x1024, .f32⟩ : BufTy).Contents (Elt F)) (x1 : Mat F) :
    Cert.ReferenceIdeal.Read.val_main_v33 (F := F) x0 x1 = wStep (Cert.ReferenceIdeal.Read.val_main_v2 (F := F) x0) x1 := rfl
private theorem ref_v39 (x0 : (⟨S4x8192x1024, .f32⟩ : BufTy).Contents (Elt F)) (x1 : Mat F) :
    Cert.ReferenceIdeal.Read.val_main_v39 (F := F) x0 x1 = wQuantT (Cert.ReferenceIdeal.Read.val_main_v2 (F := F) x0) x1 := rfl

end Chain

/-! ## The kernel's host arithmetic reads the same functions off the first pass's array -/

/-- The kernel's column maxima as a vector over the columns: the first pass's array with its unit axis dropped. -/
private def cmK (c : Dev nD) : ColVec Ideal :=
  shapeCast S1024 (W2 (F := Ideal) m c (Proc.devRef .tc main_v1) : (⟨S1x1024, .f32⟩ : BufTy).Contents (Elt Ideal)) shapeCasts_S1x1024_S1024

/-- The weight and the bias reach the host arithmetic as launched: neither the first reshape nor the first pass writes them. -/
private theorem w2_arg1 (c : Dev nD) : W2 (F := Ideal) m c (Proc.devRef .tc main_arg1) = arg1 m c :=
  calc W2 m c (Proc.devRef .tc main_arg1)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-- The inverse smoothing scale as the second pass finds it: the kernel's column maxima and the weight through the shared
    functions, a unit axis added. -/
private theorem k_v11 (c : Dev nD) :
    (V7 (F := Ideal) m c main_v11 : S1x1024.Idx → EReal)
      = shapeCast S1x1024 (invSmooth (cmK m c) (W2 (F := Ideal) m c (Proc.devRef .tc main_arg1))) shapeCasts_S1024_S1x1024 := by
  show StableHlo.after hostOps1_4 _ (Proc.devRef .tc main_v11) = _
  after_results
  rfl

private theorem w1_arg2 (c : Dev nD) : W6 (F := Ideal) m c (Proc.devRef .tc main_arg2) = arg2 m c :=
  calc W6 m c (Proc.devRef .tc main_arg2)
    _ = W5 m c (Proc.devRef .tc main_arg2) := StableHlo.after_of_writes_sub hostOps1_3 _ hostOps1_3_writes (by decide)
    _ = W4 m c (Proc.devRef .tc main_arg2) := StableHlo.after_of_writes_sub hostOps1_2 _ hostOps1_2_writes (by decide)
    _ = W3 m c (Proc.devRef .tc main_arg2) := StableHlo.after_of_writes_sub hostOps1_1 _ hostOps1_1_writes (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-- The weight's row steps as the second pass finds them, a unit axis added. -/
private theorem k_v26 (c : Dev nD) :
    (V7 (F := Ideal) m c main_v26 : S1x1024.Idx → EReal)
      = shapeCast S1x1024 (wStep (cmK m c) (W2 (F := Ideal) m c (Proc.devRef .tc main_arg1))) shapeCasts_S1024_S1x1024 := by
  show StableHlo.after hostOps1_4 _ (Proc.devRef .tc main_v26) = _
  after_results
  rfl

/-- The smoothed weight over its rows' steps, after the long stretch of host arithmetic. -/
private theorem k_v23 (c : Dev nD) :
    (W3 (F := Ideal) m c (Proc.devRef .tc main_v23) : S1024x1024.Idx → EReal)
      = Host.divf (F := Ideal) (s := S1024x1024) (φ := .f32) (smoothedW (cmK m c) (W2 (F := Ideal) m c (Proc.devRef .tc main_arg1)))
          (broadcastInDim S1024x1024 ![0, 1] bcast_S1024x1_S1024x1024_0_1
            (broadcastInDim S1024x1 ![0] bcast_S1024_S1024x1_0 (wStep (cmK m c) (W2 (F := Ideal) m c (Proc.devRef .tc main_arg1))))) := by
  show StableHlo.after hostOps1 _ (Proc.devRef .tc main_v23) = _
  after_results
  rfl

/-- Rounded, -/
private theorem k_v24 (c : Dev nD) :
    (W4 (F := Ideal) m c (Proc.devRef .tc main_v24) : S1024x1024.Idx → EReal)
      = Host.roundeven (F := Ideal) (s := S1024x1024) (φ := .f32) (W3 (F := Ideal) m c (Proc.devRef .tc main_v23)) := by
  show StableHlo.after hostOps1_1 (W3 m c) (Proc.devRef .tc main_v24) = _
  generalize W3 (F := Ideal) m c = X
  after_results
  rfl

/-- the two clamping bounds set, -/
private theorem k_v24' (c : Dev nD) :
    (W5 (F := Ideal) m c (Proc.devRef .tc main_v24) : S1024x1024.Idx → EReal) = W4 (F := Ideal) m c (Proc.devRef .tc main_v24) :=
  StableHlo.after_of_writes_sub hostOps1_2 _ hostOps1_2_writes (by decide)
private theorem k_cst5 (c : Dev nD) :
    (W5 (F := Ideal) m c (Proc.devRef .tc main_cst_5) : S_.Idx → EReal) = constant (F := Ideal) S_ .f32 0xC2FE0000#32 := by
  show StableHlo.after hostOps1_2 (W4 m c) (Proc.devRef .tc main_cst_5) = _
  generalize W4 (F := Ideal) m c = X
  after_results
private theorem k_cst6 (c : Dev nD) :
    (W5 (F := Ideal) m c (Proc.devRef .tc main_cst_6) : S_.Idx → EReal) = constant (F := Ideal) S_ .f32 0x42FE0000#32 := by
  show StableHlo.after hostOps1_2 (W4 m c) (Proc.devRef .tc main_cst_6) = _
  generalize W4 (F := Ideal) m c = X
  after_results

/-- clamped, -/
private theorem k_v25 (c : Dev nD) :
    (W6 (F := Ideal) m c (Proc.devRef .tc main_v25) : S1024x1024.Idx → EReal)
      = minimumf (F := Ideal) (s := S1024x1024) (φ := .f32)
          (broadcastInDim S1024x1024 ![] bcast_S_S1024x1024 (id (W5 (F := Ideal) m c (Proc.devRef .tc main_cst_6) : (⟨S_, .f32⟩ : BufTy).Contents (Elt Ideal))))
          (maximumf (F := Ideal) (s := S1024x1024) (φ := .f32)
            (broadcastInDim S1024x1024 ![] bcast_S_S1024x1024 (id (W5 (F := Ideal) m c (Proc.devRef .tc main_cst_5) : (⟨S_, .f32⟩ : BufTy).Contents (Elt Ideal))))
            (W5 (F := Ideal) m c (Proc.devRef .tc main_v24))) := by
  show StableHlo.after hostOps1_3 (W5 m c) (Proc.devRef .tc main_v25) = _
  generalize W5 (F := Ideal) m c = X
  after_results
  rfl

/-- transposed and its float format changed: the quantized transposed weight as the second pass finds it. -/
private theorem k_v28' (c : Dev nD) :
    (V7 (F := Ideal) m c main_v28 : S1024x1024.Idx → EReal)
      = (truncf .bf16 (transpose S1024x1024 [1, 0] (W6 (F := Ideal) m c (Proc.devRef .tc main_v25) : Mat Ideal) transposes_S1024x1024_S1024x1024_1_0 : Mat Ideal)
          bitsLt_bf16_f32 : FVec Ideal S1024x1024 .bf16) := by
  show StableHlo.after hostOps1_4 (W6 m c) (Proc.devRef .tc main_v28) = _
  generalize W6 (F := Ideal) m c = X
  after_results

private theorem k_v28 (c : Dev nD) :
    (V7 (F := Ideal) m c main_v28 : S1024x1024.Idx → EReal)
      = (truncf .bf16 (wQuantT (cmK m c) (W2 (F := Ideal) m c (Proc.devRef .tc main_arg1))) bitsLt_bf16_f32 : FVec Ideal S1024x1024 .bf16) := by
  rw [k_v28', k_v25, k_cst5, k_cst6, k_v24', k_v24, k_v23]
  rfl

/-- The bias as the second pass finds it: the argument with a unit axis added. -/
private theorem k_v29 (c : Dev nD) :
    (V7 (F := Ideal) m c main_v29 : S1x1024.Idx → EReal)
      = shapeCast S1x1024 (W6 (F := Ideal) m c (Proc.devRef .tc main_arg2) : (⟨S1024, .f32⟩ : BufTy).Contents (Elt Ideal)) shapeCasts_S1024_S1x1024 := by
  show StableHlo.after hostOps1_4 (W6 m c) (Proc.devRef .tc main_v29) = _
  generalize W6 (F := Ideal) m c = X
  after_results
  rfl

/-! ## The two column maxima are equal, so the operands are -/

/-- The kernel's column maxima are the reference's. -/
private theorem cm_meets (c : Dev nD) : cmK m c = Cert.ReferenceIdeal.Read.val_main_v2 (F := Ideal) (arg0 m c) := by
  funext i
  obtain ⟨j, rfl⟩ : ∃ j : Fin 1024, i = ix1 j := ⟨i 0, eq_ix1 i⟩
  exact (shapeCast_1a_a_apply _ shapeCasts_S1x1024_S1024 j).trans (colmax_meets m c j)

/-- The inverse smoothing scale. -/
theorem inv_meets (c : Dev nD) (k : Fin 1024) :
    (V7 (F := Ideal) m c main_v11 : S1x1024.Idx → EReal) (ix2 0 k)
      = (Cert.ReferenceIdeal.Read.val_main_v10 (F := Ideal) (arg0 m c) (arg1 m c) : S1024.Idx → EReal) (ix1 k) := by
  rw [k_v11, shapeCast_a_1a_apply, w2_arg1, cm_meets, ref_v10]

/-- The quantized transposed weight. -/
theorem wq_meets (c : Dev nD) (k n : Fin 1024) :
    (V7 (F := Ideal) m c main_v28 : S1024x1024.Idx → EReal) (ix2 k n)
      = (Cert.ReferenceIdeal.Read.val_main_v39 (F := Ideal) (arg0 m c) (arg1 m c) : S1024x1024.Idx → EReal) (ix2 k n) := by
  rw [k_v28, truncf_apply, w2_arg1, cm_meets, ref_v39]

/-- The weight's row steps. -/
theorem ws_meets (c : Dev nD) (n : Fin 1024) :
    (V7 (F := Ideal) m c main_v26 : S1x1024.Idx → EReal) (ix2 0 n)
      = (Cert.ReferenceIdeal.Read.val_main_v33 (F := Ideal) (arg0 m c) (arg1 m c) : S1024.Idx → EReal) (ix1 n) := by
  rw [k_v26, shapeCast_a_1a_apply, w2_arg1, cm_meets, ref_v33]

/-- The bias. -/
theorem bias_meets (c : Dev nD) (n : Fin 1024) :
    (V7 (F := Ideal) m c main_v29 : S1x1024.Idx → EReal) (ix2 0 n) = (arg2 m c : S1024.Idx → EReal) (ix1 n) := by
  rw [k_v29, shapeCast_a_1a_apply, w1_arg2]

end Cert.KernelIdeal.Frame

end
-- ==== Proof.KI.BlockPayload.lean ====
/-
  The quantize-and-multiply pass's result at one position of a tile, at the ideal values: the output row function
  of that row of the tile.

  At position (p, n) the body's value depends only on row p of the activation tile and on the four resident
  operands: the row's largest |x k * s k| is a maximum folded from minus infinity over the 1024 entries (their
  supremum), the row's step is that over 127 floored at the tiny constant, each entry is scaled, divided by the
  step, rounded to the nearest integer (ties to even) and clamped, the quantized row is multiplied with the weight
  (a sum over the 1024 contraction indices into a zero accumulator), and the product is rescaled by the row's step
  and the weight's step for column n and shifted by the bias. Changes of float format are the identity here.
-/
import proofs.«110519_j61314953118436_1_alg».proof.Proof.KI.QuantBody
import proofs.«110519_j61314953118436_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frame

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen Cert.SmoothQuant

/-- An [a] vector viewed as an [a, 1] column reads, at (i, u), the vector at i. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An [a, 1] column broadcast along the lanes reads, at (p, c), the column at p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane maximum of a [512, 1024] tile at row p: the supremum of the row. -/
private theorem rowMax_apply (v : FVec Ideal S512x1024 .f32) (p : Fin 512) :
    multiReduction (F := Ideal) .maximumf [1] S512 v 0xFF800000#32 reduces_S512x1024_S512 (.inl rfl) rfl (ix1 p)
      = ⨆ k : Fin 1024, v (ix2 p k) := by
  refine (Ideal.multiReduction_maximumf_single v 0xFF800000#32 reduces_S512x1024_S512 (.inl rfl) rfl (ix1 p)).trans ?_
  have e : (v ∘ reduces_S512x1024_S512.lift (ix1 p)) = fun k : Fin 1024 => v (ix2 p k) :=
    funext fun k => congrArg v (funext fun a => Fin.ext (match a with | ⟨0, _⟩ => rfl | ⟨1, _⟩ => rfl))
  exact (congrArg (fun f => (Finset.univ : Finset (Fin 1024)).fold max (Ideal.ofBits .f32 0xFF800000#32) f) e).trans
    (fold_max_negInf_eq_iSup _)

/-- |a| at an index. -/
private theorem absf_apply' {s : Shape} {φ : FTy} (a : FVec Ideal s φ) (i : s.Idx) : absf a i = max (a i) (-(a i)) := rfl
/-- Rounding to the nearest integer, ties to even, at an index. -/
private theorem roundeven_apply' {s : Shape} {φ : FTy} (a : FVec Ideal s φ) (i : s.Idx) :
    roundeven a i = Ideal.liftRound Ideal.roundHalfEven (a i) := rfl

/-- The tile scaled by the smoothing row: entry (p, k) is x p k * s k. -/
private def scaledTile (x0 : Vec Ideal S512x1024 .f32) (x1 : Vec Ideal S1x1024 .f32) : FVec Ideal S512x1024 .f32 :=
  mulf (shapeCast S512x1024 x0 shapeCasts_S512x1024_S512x1024)
    (broadcastTo S512x1024 (shapeCast S1x1024 x1 shapeCasts_S1x1024_S1x1024) broadcasts_S1x1024_S512x1024)

private theorem scaledTile_apply (x0 : Vec Ideal S512x1024 .f32) (x1 : Vec Ideal S1x1024 .f32) (p : Fin 512) (k : Fin 1024) :
    scaledTile x0 x1 (ix2 p k) = (x0 : S512x1024.Idx → EReal) (ix2 p k) * (x1 : S1x1024.Idx → EReal) (ix2 0 k) := by
  unfold scaledTile
  rw [mulf_apply, shapeCast_self, shapeCast_self, broadcastTo_1b_ab_apply]

/-- The column of the rows' steps: entry (p, 0) is row p's largest |x p k * s k| over 127, floored at the tiny constant. -/
private def stepCol (x0 : Vec Ideal S512x1024 .f32) (x1 : Vec Ideal S1x1024 .f32) : FVec Ideal S512x1 .f32 :=
  maximumf (divf (shapeCast S512x1 (multiReduction (F := Ideal) .maximumf [1] S512 (absf (scaledTile x0 x1)) 0xFF800000#32
        reduces_S512x1024_S512 (.inl rfl) rfl) shapeCasts_S512_S512x1)
      (broadcast S512x1 (Scalar.ofBits .f32 0x42FE0000#32)))
    (broadcast S512x1 (Scalar.ofBits .f32 0x2B8CBCCC#32))

private theorem stepCol_apply (x0 : Vec Ideal S512x1024 .f32) (x1 : Vec Ideal S1x1024 .f32) (p : Fin 512) :
    stepCol x0 x1 (ix2 p (0 : Fin 1))
      = rowScale (fun k => (x0 : S512x1024.Idx → EReal) (ix2 p k)) (fun k => (x1 : S1x1024.Idx → EReal) (ix2 0 k)) := by
  unfold stepCol rowScale
  rw [maximumf_apply, divf_apply, broadcast_apply, broadcast_apply, shapeCast_a_a1_apply, rowMax_apply]
  simp only [absf_apply', scaledTile_apply]
  rfl

/-- The quantized tile: entry (p, k) is row p's quantized entry k. -/
private def quantTile (x0 : Vec Ideal S512x1024 .f32) (x1 : Vec Ideal S1x1024 .f32) : FVec Ideal S512x1024 .f32 :=
  minimumf (broadcast S512x1024 (Scalar.ofBits .f32 0x42FE0000#32))
    (maximumf (broadcast S512x1024 (Scalar.ofBits .f32 0xC2FE0000#32))
      (roundeven (divf (scaledTile x0 x1) (broadcastTo S512x1024 (stepCol x0 x1) broadcasts_S512x1_S512x1024))))

private theorem quantTile_apply (x0 : Vec Ideal S512x1024 .f32) (x1 : Vec Ideal S1x1024 .f32) (p : Fin 512) (k : Fin 1024) :
    quantTile x0 x1 (ix2 p k)
      = quant (fun k => (x0 : S512x1024.Idx → EReal) (ix2 p k)) (fun k => (x1 : S1x1024.Idx → EReal) (ix2 0 k)) k := by
  unfold quantTile quant
  rw [minimumf_apply, maximumf_apply, broadcast_apply, broadcast_apply, roundeven_apply', divf_apply, broadcastTo_a1_ab_apply,
    stepCol_apply, scaledTile_apply]
  rfl

/-- The payload as the composition of the scaled tile, the steps, the quantized tile and the product. -/
private theorem pay_eq (x0 : Vec Ideal S512x1024 .f32) (x1 : Vec Ideal S1x1024 .f32) (x2 : Vec Ideal S1024x1024 .bf16)
    (x3 : Vec Ideal S1x1024 .f32) (x4 : Vec Ideal S1x1024 .f32) :
    k1_pay1 (F := Ideal) x0 x1 x2 x3 x4
      = addf (mulf (mulf (matmul dot_S512x1024_S1024x1024_S512x1024_1_0_0_1_n_n none (truncf .bf16 (quantTile x0 x1) bitsLt_bf16_f32)
              (shapeCast S1024x1024 x2 shapeCasts_S1024x1024_S1024x1024 : FVec Ideal S1024x1024 .bf16) (constant (F := Ideal) S512x1024 .f32 0x00000000#32))
            (broadcastTo S512x1024 (stepCol x0 x1) broadcasts_S512x1_S512x1024))
          (broadcastTo S512x1024 (shapeCast S1x1024 x3 shapeCasts_S1x1024_S1x1024) broadcasts_S1x1024_S512x1024))
        (broadcastTo S512x1024 (shapeCast S1x1024 x4 shapeCasts_S1x1024_S1x1024) broadcasts_S1x1024_S512x1024) := rfl

/-! The product's operand indices: the left operand is read at (row, contraction index), the right at (contraction index, column). -/
private theorem lhs_dot_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
private theorem lhs_dot_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
private theorem rhs_dot_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
private theorem rhs_dot_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product into the zero accumulator at (p, n): the sum over the contraction index. -/
private theorem product_apply (a : FVec Ideal S512x1024 .bf16) (b : FVec Ideal S1024x1024 .bf16) (p : Fin 512) (n : Fin 1024) :
    matmul dot_S512x1024_S1024x1024_S512x1024_1_0_0_1_n_n none a b (constant (F := Ideal) S512x1024 .f32 0x00000000#32) (ix2 p n)
      = ∑ k : Fin 1024, a (ix2 p k) * b (ix2 k n) := by
  show FloatOps.matmul dot_S512x1024_S1024x1024_S512x1024_1_0_0_1_n_n none a b (constant (F := Ideal) S512x1024 .f32 0x00000000#32) (ix2 p n) = _
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p n) ((ValueIdx.contrEquiv1 dot_S512x1024_S1024x1024_S512x1024_1_0_0_1_n_n 1024 rfl rfl).symm k) = ix2 p k := funext fun a => Fin.ext (by
    match a with
    | ⟨0, _⟩ => exact lhs_dot_0 _ _
    | ⟨1, _⟩ => exact (lhs_dot_1 _ _).trans hk)
  have er : dot_S512x1024_S1024x1024_S512x1024_1_0_0_1_n_n.rhsIdx (ix2 p n) ((ValueIdx.contrEquiv1 dot_S512x1024_S1024x1024_S512x1024_1_0_0_1_n_n 1024 rfl rfl).symm k) = ix2 k n := funext fun a => Fin.ext (by
    match a with
    | ⟨0, _⟩ => exact (rhs_dot_0 _ _).trans hk
    | ⟨1, _⟩ => exact rhs_dot_1 _ _)
  rw [el, er]

/-- The body's result at position (p, n) of a tile is the output row function of row p of the tile. -/
theorem outBlock_apply (x0 : Vec Ideal S512x1024 .f32) (x1 : Vec Ideal S1x1024 .f32) (x2 : Vec Ideal S1024x1024 .bf16)
    (x3 : Vec Ideal S1x1024 .f32) (x4 : Vec Ideal S1x1024 .f32) (p : Fin 512) (n : Fin 1024) :
    (outBlock (F := Ideal) x0 x1 x2 x3 x4 : S512x1024.Idx → EReal) (ix2 p n)
      = outRow (fun k => (x0 : S512x1024.Idx → EReal) (ix2 p k)) (fun k => (x1 : S1x1024.Idx → EReal) (ix2 0 k))
          (fun k n' => (x2 : S1024x1024.Idx → EReal) (ix2 k n')) (fun n' => (x3 : S1x1024.Idx → EReal) (ix2 0 n'))
          (fun n' => (x4 : S1x1024.Idx → EReal) (ix2 0 n')) n := by
  rw [outBlock_eq, pay_eq]
  unfold outRow
  rw [addf_apply, mulf_apply, mulf_apply, product_apply, broadcastTo_a1_ab_apply, stepCol_apply,
    broadcastTo_1b_ab_apply, broadcastTo_1b_ab_apply, shapeCast_self, shapeCast_self, shapeCast_self]
  simp only [truncf_apply, quantTile_apply]

end Cert.KernelIdeal.Frame

end
-- ==== Proof.KI.BlockValue.lean ====
/-
  What the quantize-and-multiply pass leaves in its output array, at the ideal values: entry (r, n) is the layer's
  output row function of row r of the activation and the four resident operands, at column n.

  Tile t covers rows 512 t .. 512 t + 511 and writes its block back at every point, the blocks tile the array, and
  the body's result at (p, n) of a tile depends only on row p of the tile: the row's largest |x k * s k| (a maximum
  folded from minus infinity over the 1024 entries: their supremum), the row's step, its quantized entries, their
  product with the weight summed over the 1024 contraction indices, and the two rescalings and the bias.
-/
import proofs.«110519_j61314953118436_1_alg».proof.Proof.KI.QuantBody
import proofs.«110519_j61314953118436_1_alg».proof.Proof.KI.BlockPayload
import proofs.«110519_j61314953118436_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frame

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen Cert.SmoothQuant

variable (V : (c : Dev nD) → (b : Ref sig .tc) → Buf (Elt Ideal) ((c : Thread nD τ).loc b))

/-! ## From blocks to the array -/

/-- The printed index maps over the grid: the activation's and the output's tiles move down the rows with the grid
    point, the four resident operands stay at block (0, 0). -/
private theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Entry (r, n) of the layer's output, from the five arrays the pass reads. -/
private def rowOut (c : Dev nD) (r : Fin 32768) (n : Fin 1024) : EReal :=
  outRow (fun k => (V c main_v0 : S32768x1024.Idx → EReal) (ix2 r k))
    (fun k => (V c main_v11 : S1x1024.Idx → EReal) (ix2 0 k))
    (fun k n => (V c main_v28 : S1024x1024.Idx → EReal) (ix2 k n))
    (fun n => (V c main_v26 : S1x1024.Idx → EReal) (ix2 0 n))
    (fun n => (V c main_v29 : S1x1024.Idx → EReal) (ix2 0 n)) n

/-- The layer's output over the whole activation. -/
private def wholeOut (c : Dev nD) : S32768x1024.Idx → EReal := fun y => rowOut V c (y 0) (y 1)

/-- Tile t of the activation at (p, k) is the activation at row 512 t + p. -/
private theorem rows_read (c : Dev nD) (t : Fin cfg1.N) (p : Fin 512) (k : Fin 1024) (r : Fin 32768)
    (hr : r.val = t.val * 512 + p.val) :
    (iblk1 V c 0 t : S512x1024.Idx → EReal) (ix2 p k) = (V c main_v0 : S32768x1024.Idx → EReal) (ix2 r k) := by
  obtain ⟨e0, e1, -⟩ := idx_facts t
  unfold iblk1
  rw [View.read_apply]
  show V c main_v0 _ = V c main_v0 _
  congr 1
  funext a; apply Fin.ext
  match a with
  | ⟨0, _⟩ => show win1_0.index t (0 : Fin 2) * 512 + 1 * p.val = r.val; omega
  | ⟨1, _⟩ => show win1_0.index t (1 : Fin 2) * 1024 + 1 * k.val = k.val; omega

/-- The smoothing row's block is the whole row at every point. -/
private theorem smooth_read (c : Dev nD) (t : Fin cfg1.N) (k : Fin 1024) :
    (iblk1 V c 1 t : S1x1024.Idx → EReal) (ix2 0 k) = (V c main_v11 : S1x1024.Idx → EReal) (ix2 0 k) := by
  obtain ⟨-, -, e0, e1, -⟩ := idx_facts t
  unfold iblk1
  rw [View.read_apply]
  show V c main_v11 _ = V c main_v11 _
  congr 1
  funext a; apply Fin.ext
  match a with
  | ⟨0, _⟩ => show win1_1.index t (0 : Fin 2) * 1 + 1 * 0 = 0; omega
  | ⟨1, _⟩ => show win1_1.index t (1 : Fin 2) * 1024 + 1 * k.val = k.val; omega

/-- The weight's block is the whole weight at every point. -/
private theorem weight_read (c : Dev nD) (t : Fin cfg1.N) (k n : Fin 1024) :
    (iblk1 V c 2 t : S1024x1024.Idx → EReal) (ix2 k n) = (V c main_v28 : S1024x1024.Idx → EReal) (ix2 k n) := by
  obtain ⟨-, -, -, -, e0, e1, -⟩ := idx_facts t
  unfold iblk1
  rw [View.read_apply]
  show V c main_v28 _ = V c main_v28 _
  congr 1
  funext a; apply Fin.ext
  match a with
  | ⟨0, _⟩ => show win1_2.index t (0 : Fin 2) * 1024 + 1 * k.val = k.val; omega
  | ⟨1, _⟩ => show win1_2.index t (1 : Fin 2) * 1024 + 1 * n.val = n.val; omega

/-- The weight's column steps' block is the whole row at every point. -/
private theorem wscale_read (c : Dev nD) (t : Fin cfg1.N) (n : Fin 1024) :
    (iblk1 V c 3 t : S1x1024.Idx → EReal) (ix2 0 n) = (V c main_v26 : S1x1024.Idx → EReal) (ix2 0 n) := by
  obtain ⟨-, -, -, -, -, -, e0, e1, -⟩ := idx_facts t
  unfold iblk1
  rw [View.read_apply]
  show V c main_v26 _ = V c main_v26 _
  congr 1
  funext a; apply Fin.ext
  match a with
  | ⟨0, _⟩ => show win1_3.index t (0 : Fin 2) * 1 + 1 * 0 = 0; omega
  | ⟨1, _⟩ => show win1_3.index t (1 : Fin 2) * 1024 + 1 * n.val = n.val; omega

/-- The bias's block is the whole row at every point. -/
private theorem bias_read (c : Dev nD) (t : Fin cfg1.N) (n : Fin 1024) :
    (iblk1 V c 4 t : S1x1024.Idx → EReal) (ix2 0 n) = (V c main_v29 : S1x1024.Idx → EReal) (ix2 0 n) := by
  obtain ⟨-, -, -, -, -, -, -, -, e0, e1, -⟩ := idx_facts t
  unfold iblk1
  rw [View.read_apply]
  show V c main_v29 _ = V c main_v29 _
  congr 1
  funext a; apply Fin.ext
  match a with
  | ⟨0, _⟩ => show win1_4.index t (0 : Fin 2) * 1 + 1 * 0 = 0; omega
  | ⟨1, _⟩ => show win1_4.index t (1 : Fin 2) * 1024 + 1 * n.val = n.val; omega

/-- What point t writes back is tile t of the layer's output. -/
private theorem flushed_eq (c : Dev nD) (t : Fin cfg1.N) :
    (dat1 (F := Ideal) V c).flushed 5 t = ((cfg1.win 5).blk t).view.read (Elt Ideal) (wholeOut V c) := by
  show (cfg1.win 5).cut (grid1.coords t) ((dat1 (F := Ideal) V c).after 5 t) = _
  rw [after1_5]
  obtain ⟨-, -, -, -, -, -, -, -, -, -, e0, e1⟩ := idx_facts t
  funext j
  obtain ⟨p, n, rfl⟩ : ∃ (p : Fin 512) (n : Fin 1024), j = ix2 p n := ⟨j 0, j 1, eq_ix2 j⟩
  have ht : t.val < 64 := Nat.lt_of_lt_of_eq t.isLt N_1
  have hy0 : ((((cfg1.win 5).blk t).view.emb (ix2 p n)) 0).val = t.val * 512 + p.val := by
    show win1_5.index t (0 : Fin 2) * 512 + 1 * p.val = _; omega
  have hy1 : ((((cfg1.win 5).blk t).view.emb (ix2 p n)) 1).val = n.val := by
    show win1_5.index t (1 : Fin 2) * 1024 + 1 * n.val = _; omega
  rw [View.read_apply]
  show (outBlock (F := Ideal) (iblk1 V c 0 t) (iblk1 V c 1 t) (iblk1 V c 2 t) (iblk1 V c 3 t) (iblk1 V c 4 t) : S512x1024.Idx → EReal) (ix2 p n)
    = rowOut V c ((((cfg1.win 5).blk t).view.emb (ix2 p n)) 0) ((((cfg1.win 5).blk t).view.emb (ix2 p n)) 1)
  refine (outBlock_apply _ _ _ _ _ p n).trans ?_
  have hr : (⟨t.val * 512 + p.val, by omega⟩ : Fin 32768) = (((cfg1.win 5).blk t).view.emb (ix2 p n)) 0 := Fin.ext hy0.symm
  have hn : n = (((cfg1.win 5).blk t).view.emb (ix2 p n)) 1 := Fin.ext hy1.symm
  rw [← hr, ← hn]
  unfold rowOut
  simp only [rows_read V c t p _ ⟨t.val * 512 + p.val, by omega⟩ rfl, smooth_read, weight_read, wscale_read, bias_read]

/-- An index of the array is in point t's block iff each coordinate is in the block's range on its axis. -/
private theorem mem_blk (t : Fin cfg1.N) (i : S32768x1024.Idx) :
    i ∈ ((cfg1.win 5).blk t).view.set ↔ ∀ a : Fin 2, win1_5.index t a * S512x1024.size a ≤ (i a).val
      ∧ (i a).val < win1_5.index t a * S512x1024.size a + S512x1024.size a := by
  show i ∈ ((View.whole main_v30).slice (win1_5.rect t)).set ↔ _
  rw [View.set_slice_whole, Rect.mem_set_unit]
  exact Iff.rfl

/-- Row r is in the block of point r / 512. -/
private theorem cover (i : S32768x1024.Idx) :
    ∃ t : Fin cfg1.N, (cfg1.win 5).flush t = true ∧ i ∈ ((cfg1.win 5).blk t).view.set := by
  have h0 : (i 0).val < 32768 := idx2_lt0 i
  have h1 : (i 1).val < 1024 := idx2_lt1 i
  refine ⟨⟨(i 0).val / 512, by rw [show cfg1.N = 64 from N_1]; omega⟩, flush1_5 _, ?_⟩
  rw [mem_blk]
  obtain ⟨-, -, -, -, -, -, -, -, -, -, e0, e1⟩ := idx_facts ⟨(i 0).val / 512, by rw [show cfg1.N = 64 from N_1]; omega⟩
  intro a
  match a with
  | ⟨0, _⟩ =>
    show win1_5.index _ (0 : Fin 2) * 512 ≤ (i 0).val ∧ (i 0).val < win1_5.index _ (0 : Fin 2) * 512 + 512
    rw [e0]; show (i 0).val / 512 * 512 ≤ (i 0).val ∧ (i 0).val < (i 0).val / 512 * 512 + 512; omega
  | ⟨1, _⟩ =>
    show win1_5.index _ (1 : Fin 2) * 1024 ≤ (i 1).val ∧ (i 1).val < win1_5.index _ (1 : Fin 2) * 1024 + 1024
    rw [e1]; omega

/-- The pass's output array after the run, entry by entry. -/
theorem rows_array (c : Dev nD) (y : S32768x1024.Idx) :
    ((dat1 (F := Ideal) V c).arrAt 5 cfg1.N : S32768x1024.Idx → EReal) y
      = outRow (fun k => (V c main_v0 : S32768x1024.Idx → EReal) (ix2 (y 0) k))
          (fun k => (V c main_v11 : S1x1024.Idx → EReal) (ix2 0 k))
          (fun k n => (V c main_v28 : S1024x1024.Idx → EReal) (ix2 k n))
          (fun n => (V c main_v26 : S1x1024.Idx → EReal) (ix2 0 n))
          (fun n => (V c main_v29 : S1x1024.Idx → EReal) (ix2 0 n)) (y 1) :=
  congrFun ((dat1 (F := Ideal) V c).arrAt_eq_of_cover 5 (wholeOut V c) (fun t _ => flushed_eq V c t) cover) y

end Cert.KernelIdeal.Frame

end
-- ==== Proof.KI.HostBridge.lean ====
/-
  The kernel's result is the reference's, at the ideal values.

  After the run the kernel's returned array is the reshape of what the quantize-and-multiply pass left, whose entry
  (r, n) is the output row function of row r of the reshaped activation and of the four operands the host computed
  between the passes. Each of those is the reference's: the activation and the column maxima where the first pass
  meets the reference, the four operands after it. The reference's result before its last reshape is the same
  output row function of the same things, and the two last reshapes are the same row-major relabelling: entry by
  entry the two results agree.
-/
import proofs.«110519_j61314953118436_1_alg».proof.Proof.KI.OperandsMeet
import proofs.«110519_j61314953118436_1_alg».proof.Proof.KI.BlockValue
import proofs.«110519_j61314953118436_1_alg».proof.Proof.RefValue
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Frame

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen Cert.SmoothQuant

variable (m : (ℓ : Loc nD τ sig) → Buf (Elt Ideal) ℓ)

/-- What @main returns is the reshape of the quantize-and-multiply pass's output array. -/
private theorem ret_eq (c : Dev nD) :
    (W9 (F := Ideal) m c (Proc.devRef .tc main_v31) : S4x8192x1024.Idx → EReal)
      = shapeCast S4x8192x1024 (W8 (F := Ideal) m c (Proc.devRef .tc main_v30) : S32768x1024.Idx → EReal)
          shapeCasts_S32768x1024_S4x8192x1024 := by
  show StableHlo.after hostOps2 (W8 (F := Ideal) m c) (Proc.devRef .tc main_v31) = _
  after_results
  rfl

/-- The last reshape is a row-major relabelling: position (a, b, n) of the result is position (a * 8192 + b, n) of
    its operand, the reference's own reading of its last reshape. -/
private theorem reshape_read (y : S32768x1024.Idx → EReal) (h : S32768x1024.ShapeCasts S4x8192x1024) (i : S4x8192x1024.Idx) :
    shapeCast S4x8192x1024 y h i = y (Cert.ReferenceIdeal.Read.idx_main_v50 i) :=
  shapeCast_apply y h i (Cert.ReferenceIdeal.Read.idx_main_v50 i) (by
    rewrite [Shape.rowMajor_val_two, Shape.rowMajor_val_three]
    have h0 : (i 0).val < 4 := (i 0).isLt
    have h1 : (i 1).val < 8192 := (i 1).isLt
    have h2 : (i 2).val < 1024 := (i 2).isLt
    show (((i 0).val * 8192 + (i 1).val) * 1024 + (i 2).val) / 1024 * 1024 + (((i 0).val * 8192 + (i 1).val) * 1024 + (i 2).val) % 1024
      = ((i 0).val * 8192 + (i 1).val) * 1024 + (i 2).val
    omega)

/-- The array @main returns, after the run, is the reference's result term of the launch arguments. -/
theorem kernel_result (c : Dev nD) :
    (W9 (F := Ideal) m c (Proc.devRef .tc main_v31) : S4x8192x1024.Idx → EReal)
      = Cert.ReferenceIdeal.Read.val_main_v50 (F := Ideal) (m ((c.tc : Thread nD τ).loc main_arg0))
          (m ((c.tc : Thread nD τ).loc main_arg1)) (m ((c.tc : Thread nD τ).loc main_arg2)) := by
  funext i
  -- both last reshapes read their operand at the same position (r, n)
  obtain ⟨r, n, hrn⟩ : ∃ (r : Fin 32768) (n : Fin 1024), Cert.ReferenceIdeal.Read.idx_main_v50 i = ix2 r n := ⟨_, _, eq_ix2 _⟩
  -- the five operands of the output row function, each the reference's
  have h0 : (fun k : Fin 1024 => (V7 (F := Ideal) m c main_v0 : S32768x1024.Idx → EReal) (ix2 r k))
      = fun k => (Cert.ReferenceIdeal.Read.val_main_v0 (F := Ideal) (arg0 m c) : S32768x1024.Idx → EReal) (ix2 r k) :=
    funext fun k => congrFun ((act_kept m c).trans (act_entry m c)) (ix2 r k)
  have h1 : (fun k : Fin 1024 => (V7 (F := Ideal) m c main_v11 : S1x1024.Idx → EReal) (ix2 0 k))
      = fun k => (Cert.ReferenceIdeal.Read.val_main_v10 (F := Ideal) (arg0 m c) (arg1 m c) : S1024.Idx → EReal) (ix1 k) :=
    funext fun k => inv_meets m c k
  have h2 : (fun (k n' : Fin 1024) => (V7 (F := Ideal) m c main_v28 : S1024x1024.Idx → EReal) (ix2 k n'))
      = fun k n' => (Cert.ReferenceIdeal.Read.val_main_v39 (F := Ideal) (arg0 m c) (arg1 m c) : S1024x1024.Idx → EReal) (ix2 k n') :=
    funext fun k => funext fun n' => wq_meets m c k n'
  have h3 : (fun n' : Fin 1024 => (V7 (F := Ideal) m c main_v26 : S1x1024.Idx → EReal) (ix2 0 n'))
      = fun n' => (Cert.ReferenceIdeal.Read.val_main_v33 (F := Ideal) (arg0 m c) (arg1 m c) : S1024.Idx → EReal) (ix1 n') :=
    funext fun n' => ws_meets m c n'
  have h4 : (fun n' : Fin 1024 => (V7 (F := Ideal) m c main_v29 : S1x1024.Idx → EReal) (ix2 0 n'))
      = fun n' => (arg2 m c : S1024.Idx → EReal) (ix1 n') :=
    funext fun n' => bias_meets m c n'
  calc (W9 (F := Ideal) m c (Proc.devRef .tc main_v31) : S4x8192x1024.Idx → EReal) i
      = (W8 (F := Ideal) m c (Proc.devRef .tc main_v30) : S32768x1024.Idx → EReal) (ix2 r n) := by
        rw [ret_eq m c, reshape_read, hrn]
    _ = ((dat1 (F := Ideal) (V7 m) c).arrAt 5 cfg1.N : S32768x1024.Idx → EReal) (ix2 r n) :=
        congrFun (W8_arr m c 5) (ix2 r n)
    _ = outRow (fun k => (V7 (F := Ideal) m c main_v0 : S32768x1024.Idx → EReal) (ix2 r k))
          (fun k => (V7 (F := Ideal) m c main_v11 : S1x1024.Idx → EReal) (ix2 0 k))
          (fun k n' => (V7 (F := Ideal) m c main_v28 : S1024x1024.Idx → EReal) (ix2 k n'))
          (fun n' => (V7 (F := Ideal) m c main_v26 : S1x1024.Idx → EReal) (ix2 0 n'))
          (fun n' => (V7 (F := Ideal) m c main_v29 : S1x1024.Idx → EReal) (ix2 0 n')) n :=
        rows_array (V7 m) c (ix2 r n)
    _ = outRow (fun k => (Cert.ReferenceIdeal.Read.val_main_v0 (F := Ideal) (arg0 m c) : S32768x1024.Idx → EReal) (ix2 r k))
          (fun k => (Cert.ReferenceIdeal.Read.val_main_v10 (F := Ideal) (arg0 m c) (arg1 m c) : S1024.Idx → EReal) (ix1 k))
          (fun k n' => (Cert.ReferenceIdeal.Read.val_main_v39 (F := Ideal) (arg0 m c) (arg1 m c) : S1024x1024.Idx → EReal) (ix2 k n'))
          (fun n' => (Cert.ReferenceIdeal.Read.val_main_v33 (F := Ideal) (arg0 m c) (arg1 m c) : S1024.Idx → EReal) (ix1 n'))
          (fun n' => (arg2 m c : S1024.Idx → EReal) (ix1 n')) n := by
        rw [h0, h1, h2, h3, h4]
    _ = (Cert.ReferenceIdeal.Read.val_main_v49 (F := Ideal) (arg0 m c) (arg1 m c) (arg2 m c) : S32768x1024.Idx → EReal) (ix2 r n) :=
        (Cert.ReferenceIdeal.RefValue.ref_rows (arg0 m c) (arg1 m c) (arg2 m c) r n).symm
    _ = Cert.ReferenceIdeal.Read.val_main_v50 (F := Ideal) (m ((c.tc : Thread nD τ).loc main_arg0))
          (m ((c.tc : Thread nD τ).loc main_arg1)) (m ((c.tc : Thread nD τ).loc main_arg2)) i := by
        rw [Cert.ReferenceIdeal.Read.val_main_v50_apply, hrn]

end Cert.KernelIdeal.Frame

end
-- ==== Proof.lean ====
/-
  The SmoothQuant linear layer as two passes over the activation against its plain reference: the claims.

  The kernel's program is a column-maximum pass over the 32768 x 1024 activation (16 tiles, the running maxima kept
  in one resident block), host arithmetic on the 1024 x 1024 weight that turns those maxima into a smoothing scale
  and a quantized weight, a quantize-multiply-dequantize pass (64 tiles of 512 rows, each row by itself), and two
  reshapes. The reference does the same arithmetic on whole arrays.

  Frames. Both readings of the kernel's program (at the machine's words and at the ideal values) run to the end
  from any memory, fault nowhere and leave every buffer that outlives a pass at the last stage of a fold through
  @main's nine items; no item writes an argument array. The reference is a host program; its run is its operations
  composed.

  Values, at the ideal values. The idealization rewrote nothing, so there is nothing to preserve. The two results
  agree entry by entry: the only place the programs differ in more than layout is the column maximum, taken tile
  by tile on one side and in one reduction on the other, and both are the supremum of the column; everything after
  it is the same operations on equal values, the row-wise part read through the tiles that cover the rows.
-/
import proofs.«110519_j61314953118436_1_alg».proof.Defs
import proofs.«110519_j61314953118436_1_alg».proof.Proof.Gen.Kernel
import proofs.«110519_j61314953118436_1_alg».proof.Proof.Gen.KernelIdeal
import proofs.«110519_j61314953118436_1_alg».proof.Proof.Gen.ReferenceIdeal
import proofs.«110519_j61314953118436_1_alg».proof.Proof.Gen.ReferenceIdeal.Run
import proofs.«110519_j61314953118436_1_alg».proof.Proof.Gen.ReferenceIdeal.Read
import proofs.«110519_j61314953118436_1_alg».proof.Proof.Gen.Pre_finite_inputs
import proofs.«110519_j61314953118436_1_alg».proof.Proof.K.TwoRegionRun
import proofs.«110519_j61314953118436_1_alg».proof.Proof.KI.TwoRegionRun
import proofs.«110519_j61314953118436_1_alg».proof.Proof.KI.HostBridge
import proofs.«110519_j61314953118436_1_alg».proof.Proof.RefValue
import Idealize.ShloMosaic.Adequacy
import Idealize.ShloMosaic.Init

noncomputable section

namespace Cert.Proof

open Idealize.ShloMosaic Idealize.SL.Sem

/-- The kernel's program at the machine's words: its arguments end as launched. -/
theorem frame_kernel : Cert.frame_Kernel (hKernel := Cert.Kernel.Gen.facts) (hPre_finite_inputs := Cert.Pre_finite_inputs.Gen.facts) :=
  fun m ρ _ => Cert.Kernel.Frame.frame m ρ

/-- The same program at the ideal values. -/
theorem frame_kernelIdeal : Cert.frame_KernelIdeal (hKernelIdeal := Cert.KernelIdeal.Gen.facts) (hPre_finite_inputs := Cert.Pre_finite_inputs.Gen.facts) :=
  fun m ρ _ => Cert.KernelIdeal.Frame.frame m ρ

/-- The reference: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both programs end with the reference's result term of those
    arguments: the kernel's by the run through its two passes and the entry-by-entry agreement, the reference's by
    its own run. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v50 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun r h c =>
      ⟨(h c _ (Cert.KernelIdeal.Frame.mem_uc Cert.KernelIdeal.main_v31 (by decide))).trans (Cert.KernelIdeal.Frame.kernel_result m c),
       (h c _ (Cert.KernelIdeal.Frame.mem_uc Cert.KernelIdeal.main_arg0 (by decide))).trans (Cert.KernelIdeal.Frame.W9_main_arg0 m c),
       (h c _ (Cert.KernelIdeal.Frame.mem_uc Cert.KernelIdeal.main_arg1 (by decide))).trans (Cert.KernelIdeal.Frame.W9_main_arg1 m c),
       (h c _ (Cert.KernelIdeal.Frame.mem_uc Cert.KernelIdeal.main_arg2 (by decide))).trans (Cert.KernelIdeal.Frame.W9_main_arg2 m c)⟩)
      (Cert.KernelIdeal.Frame.run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v50_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
